-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S2000000 : Shape := ⟨1, ![2000000]⟩
abbrev S64x16 : Shape := ⟨2, ![64, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg1 : IVec S2000000 32) (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S2000000 32 := broadcastInDim S2000000 ![] bcast_S_S2000000 main_c_8
  let main_v25 : IVec S2000000 1 := cmpi .sge main_arg1 main_v24
  let main_c_9 : IVec S_ 32 := constantI S_ 32 16#32
  let main_v26 : IVec S2000000 32 := broadcastInDim S2000000 ![] bcast_S_S2000000 main_c_9
  let main_v27 : IVec S2000000 1 := cmpi .slt main_arg1 main_v26
  let main_v28 : IVec S2000000 1 := andi main_v25 main_v27
  let main_c_10 : IVec S_ 1 := constantI S_ 1 1#1
  let main_v29 : IVec S_ 1 := (fun x v => Host.reduce IntOp.andi x v reducesTo_S2000000_S_d0 h_S_) main_v28 main_c_10
  let main_v30 : IVec S_ 1 := andi main_v23 main_v29
  main_v30

def fn {F : FTy → Type} [FloatOps F] (main_arg0 : FVec F S2000000x64 .f32) (main_arg1 : IVec S2000000 32) (main_arg2 : FVec F S64x16 .f32) (main_arg3 : FVec F S16 .f32) (main_arg4 : FVec F S16x64 .f32) (main_arg5 : FVec F S64 .f32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  let main_v4 : FVec F S64x16 .f32 := Host.absf main_arg2
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg1 main_arg5 main_v13 main_v16
-- ==== Kernel.lean ====
abbrev S2000000x64 : Shape := ⟨2, ![2000000, 64]⟩
abbrev S2000000 : Shape := ⟨1, ![2000000]⟩
abbrev S64x16 : Shape := ⟨2, ![64, 16]⟩
abbrev S16 : Shape := ⟨1, ![16]⟩
abbrev S16x64 : Shape := ⟨2, ![16, 64]⟩
abbrev S64 : Shape := ⟨1, ![64]⟩
abbrev S2000000x1 : Shape := ⟨2, ![2000000, 1]⟩
abbrev S1x16 : Shape := ⟨2, ![1, 16]⟩
abbrev S20000x1 : Shape := ⟨2, ![20000, 1]⟩
abbrev S20000x64 : Shape := ⟨2, ![20000, 64]⟩
abbrev S20000x16 : Shape := ⟨2, ![20000, 16]⟩
abbrev S16x1 : Shape := ⟨2, ![16, 1]⟩
abbrev S_ : Shape := ⟨0, ![]⟩
abbrev S16x16 : Shape := ⟨2, ![16, 16]⟩
abbrev S1x64 : Shape := ⟨2, ![1, 64]⟩

abbrev nBuf : Space → Nat
  | .hbm => 35
  | .vmem => 13
  | .smem => 0
  | _ => 0

abbrev bufTy : (tb : Table) → Fin (tcTables nBuf tb) → BufTy
  | .hbm, ⟨0, _⟩ => ⟨S2000000x64, .f32⟩
  | .hbm, ⟨1, _⟩ => ⟨S2000000, .i32⟩
  | .hbm, ⟨2, _⟩ => ⟨S64x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S2000000x1, .i32⟩
  | .hbm, ⟨7, _⟩ => ⟨S16x64, .f32⟩
  | .hbm, ⟨8, _⟩ => ⟨S1x16, .f32⟩
  | .hbm, ⟨9, _⟩ => ⟨S16x1, .f32⟩
  | .hbm, ⟨10, _⟩ => ⟨S_, .f32⟩
  | .hbm, ⟨11, _⟩ => ⟨S16x1, .f32⟩
  | .hbm, ⟨12, _⟩ => ⟨S16x1, .f32⟩
  | .hbm, ⟨13, _⟩ => ⟨S16x64, .f32⟩
  | .hbm, ⟨14, _⟩ => ⟨S16x64, .f32⟩
  | .hbm, ⟨15, _⟩ => ⟨S16x16, .f32⟩
  | .hbm, ⟨16, _⟩ => ⟨S1x16, .f32⟩
  | .hbm, ⟨17, _⟩ => ⟨S16x16, .f32⟩
  | .hbm, ⟨18, _⟩ => ⟨S16x16, .f32⟩
  | .hbm, ⟨19, _⟩ => ⟨S_, .f32⟩
  | .hbm, ⟨20, _⟩ => ⟨S16x16, .f32⟩
  | .hbm, ⟨21, _⟩ => ⟨S16x16, .f32⟩
  | .hbm, ⟨22, _⟩ => ⟨S16x64, .f32⟩
  | .hbm, ⟨23, _⟩ => ⟨S1x64, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S16x64, .f32⟩
  | .hbm, ⟨28, _⟩ => ⟨S_, .f32⟩
  | .hbm, ⟨29, _⟩ => ⟨S16x64, .f32⟩
  | .hbm, ⟨30, _⟩ => ⟨S16x64, .f32⟩
  | .hbm, ⟨31, _⟩ => ⟨S_, .f32⟩
  | .hbm, ⟨32, _⟩ => ⟨S16x64, .f32⟩
  | .hbm, ⟨33, _⟩ => ⟨S16x64, .f32⟩
  | .hbm, ⟨34, _⟩ => ⟨S2000000x64, .f32⟩
  | .local _ .vmem, ⟨0, _⟩ => ⟨S20000x1, .i32⟩
  | .local _ .vmem, ⟨1, _⟩ => ⟨S20000x1, .i32⟩
  | .local _ .vmem, ⟨2, _⟩ => ⟨S20000x64, .f32⟩
  | .local _ .vmem, ⟨3, _⟩ => ⟨S20000x64, .f32⟩
  | .local _ .vmem, ⟨4, _⟩ => ⟨S16x64, .f32⟩
  | .local _ .vmem, ⟨5, _⟩ => ⟨S1x16, .f32⟩
  | .local _ .vmem, ⟨6, _⟩ => ⟨S20000x1, .i32⟩
  | .local _ .vmem, ⟨7, _⟩ => ⟨S20000x1, .i32⟩
  | .local _ .vmem, ⟨8, _⟩ => ⟨S20000x64, .f32⟩
  | .local _ .vmem, ⟨9, _⟩ => ⟨S20000x64, .f32⟩
  | .local _ .vmem, ⟨10, _⟩ => ⟨S16x64, .f32⟩
  | .local _ .vmem, ⟨11, _⟩ => ⟨S20000x64, .f32⟩
  | .local _ .vmem, ⟨12, _⟩ => ⟨S20000x64, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S2000000_S2000000x1 : S2000000.ShapeCasts S2000000x1
  inb_S16x64_S16x64_0_0 : ∀ a, (![0, 0] : Fin 2 → Nat) a + S16x64.size a ≤ S16x64.size a
  h_S16x64 : 0 < S16x64.numel
  inb_S1x16_S1x16_0_0 : ∀ a, (![0, 0] : Fin 2 → Nat) a + S1x16.size a ≤ S1x16.size a
  h_S1x16 : 0 < S1x16.numel
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  iota_S20000x16_d1_w32 : S20000x16.Iotas .tc 32 [1]
  broadcasts_S20000x1_S20000x16 : S20000x1.Broadcasts S20000x16
  natLt_1_32 : 1 < 32
  inb_S20000x64_S20000x64_0_0 : ∀ a, (![0, 0] : Fin 2 → Nat) a + S20000x64.size a ≤ S20000x64.size a
  h_S20000x64 : 0 < S20000x64.numel
  reduces_S20000x16_S16 : S20000x16.Reduces [0] S16
  shapeCasts_S16_S1x16 : S16.ShapeCasts S1x16
  shapeCasts_S16x64_S16x64 : S16x64.ShapeCasts S16x64
  shapeCasts_S1x16_S1x16 : S1x16.ShapeCasts S1x16
  shapeCasts_S1x16_S16x1 : S1x16.ShapeCasts S16x1
  bcast_S_S16x1 : S_.BroadcastsInDim S16x1 (![] : Fin 0 → Fin S16x1.rank)
  bcast_S16x1_S16x64_0_1 : S16x1.BroadcastsInDim S16x64 (![0, 1] : Fin 2 → Fin S16x64.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  bcast_S_S16x64 : S_.BroadcastsInDim S16x64 (![] : Fin 0 → Fin S16x64.rank)
  dot_S20000x16_S20000x64_S16x64_0_0_1_1_n_n_wf : DotDims.WF S20000x16 S20000x64 S16x64 [0] [0] [1] [1] [] []
  dot_S16x64_S64x16_S16x16_1_0_0_1_n_n_wf : DotDims.WF S16x64 S64x16 S16x16 [1] [0] [0] [1] [] []
  dot_S16x16_S16x64_S16x64_1_0_0_1_n_n_wf : DotDims.WF S16x16 S16x64 S16x64 [1] [0] [0] [1] [] []
  dot_S20000x16_S16x64_S20000x64_1_0_0_1_n_n_wf : DotDims.WF S20000x16 S16x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x1.size a ≤ S2000000x1.size a
  hwx0_0 : ∀ i : grid0.Coords, EltTy.bits .i32 = 32 ∨ (Rect.block (s := S2000000x1) S20000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x64.size a ≤ S2000000x64.size a
  hwx0_1 : ∀ i : grid0.Coords, EltTy.bits .f32 = 32 ∨ (Rect.block (s := S2000000x64) S20000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x1.size a ≤ S2000000x1.size a
  hwx1_0 : ∀ i : grid1.Coords, EltTy.bits .i32 = 32 ∨ (Rect.block (s := S2000000x1) S20000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x64.size a ≤ S2000000x64.size a
  hwx1_1 : ∀ i : grid1.Coords, EltTy.bits .f32 = 32 ∨ (Rect.block (s := S2000000x64) S20000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x64.size a ≤ S2000000x64.size a
  hwx1_3 : ∀ i : grid1.Coords, EltTy.bits .f32 = 32 ∨ (Rect.block (s := S2000000x64) S20000x64.size (cc1_transform_3 i) (hinb1_3 i)).WholeWords (EltTy.packing .f32)

variable [Facts₀]

def dot_S20000x16_S20000x64_S16x64_0_0_1_1_n_n : DotDims S20000x16 S20000x64 S16x64 where
  lhsContracting := [0]
  rhsContracting := [0]
  lhsNonContracting := [1]
  rhsNonContracting := [1]
  lhsBatch := []
  rhsBatch := []
  wf := dot_S20000x16_S20000x64_S16x64_0_0_1_1_n_n_wf
def dot_S16x64_S64x16_S16x16_1_0_0_1_n_n : DotDims S16x64 S64x16 S16x16 where
  lhsContracting := [1]
  rhsContracting := [0]
  lhsNonContracting := [0]
  rhsNonContracting := [1]
  lhsBatch := []
  rhsBatch := []
  wf := dot_S16x64_S64x16_S16x16_1_0_0_1_n_n_wf
def dot_S16x16_S16x64_S16x64_1_0_0_1_n_n : DotDims S16x16 S16x64 S16x64 where
  lhsContracting := [1]
  rhsContracting := [0]
  lhsNonContracting := [0]
  rhsNonContracting := [1]
  lhsBatch := []
  rhsBatch := []
  wf := dot_S16x16_S16x64_S16x64_1_0_0_1_n_n_wf
def dot_S20000x16_S16x64_S20000x64_1_0_0_1_n_n : DotDims S20000x16 S16x64 S20000x64 where
  lhsContracting := [1]
  rhsContracting := [0]
  lhsNonContracting := [0]
  rhsNonContracting := [1]
  lhsBatch := []
  rhsBatch := []
  wf := dot_S20000x16_S16x64_S20000x64_1_0_0_1_n_n_wf

abbrev win0_0 : Pipeline.Window sig grid0 :=
  Pipeline.Window.ofSpec (Memref.whole main_v0) S20000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S20000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S16x64.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x16.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S20000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S20000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S20000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2000000x64 : Shape := ⟨2, ![2000000, 64]⟩
abbrev S2000000 : Shape := ⟨1, ![2000000]⟩
abbrev S64x16 : Shape := ⟨2, ![64, 16]⟩
abbrev S16 : Shape := ⟨1, ![16]⟩
abbrev S16x64 : Shape := ⟨2, ![16, 64]⟩
abbrev S64 : Shape := ⟨1, ![64]⟩
abbrev S_ : Shape := ⟨0, ![]⟩
abbrev S2000000x1 : Shape := ⟨2, ![2000000, 1]⟩
abbrev S16x1 : Shape := ⟨2, ![16, 1]⟩
abbrev S16x16 : Shape := ⟨2, ![16, 16]⟩
abbrev S1x16 : Shape := ⟨2, ![1, 16]⟩
abbrev S1x64 : Shape := ⟨2, ![1, 64]⟩

abbrev nBuf : Space → Nat
  | .hbm => 51
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S2000000, .i32⟩
  | .hbm, ⟨2, _⟩ => ⟨S64x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S_, .f32⟩
  | .hbm, ⟨7, _⟩ => ⟨S16x64, .f32⟩
  | .hbm, ⟨8, _⟩ => ⟨S2000000x1, .i32⟩
  | .hbm, ⟨9, _⟩ => ⟨S16x64, .f32⟩
  | .hbm, ⟨10, _⟩ => ⟨S_, .f32⟩
  | .hbm, ⟨11, _⟩ => ⟨S2000000, .f32⟩
  | .hbm, ⟨12, _⟩ => ⟨S_, .f32⟩
  | .hbm, ⟨13, _⟩ => ⟨S16, .f32⟩
  | .hbm, ⟨14, _⟩ => ⟨S2000000x1, .i32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16x1, .f32⟩
  | .hbm, ⟨20, _⟩ => ⟨S16x64, .f32⟩
  | .hbm, ⟨21, _⟩ => ⟨S16x64, .f32⟩
  | .hbm, ⟨22, _⟩ => ⟨S16x16, .f32⟩
  | .hbm, ⟨23, _⟩ => ⟨S1x16, .f32⟩
  | .hbm, ⟨24, _⟩ => ⟨S16x16, .f32⟩
  | .hbm, ⟨25, _⟩ => ⟨S16x16, .f32⟩
  | .hbm, ⟨26, _⟩ => ⟨S_, .f32⟩
  | .hbm, ⟨27, _⟩ => ⟨S16x16, .f32⟩
  | .hbm, ⟨28, _⟩ => ⟨S16x16, .f32⟩
  | .hbm, ⟨29, _⟩ => ⟨S16x64, .f32⟩
  | .hbm, ⟨30, _⟩ => ⟨S1x64, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S16x64, .f32⟩
  | .hbm, ⟨35, _⟩ => ⟨S_, .f32⟩
  | .hbm, ⟨36, _⟩ => ⟨S16x64, .f32⟩
  | .hbm, ⟨37, _⟩ => ⟨S16x64, .f32⟩
  | .hbm, ⟨38, _⟩ => ⟨S_, .f32⟩
  | .hbm, ⟨39, _⟩ => ⟨S16x64, .f32⟩
  | .hbm, ⟨40, _⟩ => ⟨S16x64, .f32⟩
  | .hbm, ⟨41, _⟩ => ⟨S_, .i32⟩
  | .hbm, ⟨42, _⟩ => ⟨S2000000, .i32⟩
  | .hbm, ⟨43, _⟩ => ⟨S2000000, .i1⟩
  | .hbm, ⟨44, _⟩ => ⟨S_, .i32⟩
  | .hbm, ⟨45, _⟩ => ⟨S2000000, .i32⟩
  | .hbm, ⟨46, _⟩ => ⟨S2000000, .i32⟩
  | .hbm, ⟨47, _⟩ => ⟨S2000000, .i32⟩
  | .hbm, ⟨48, _⟩ => ⟨S2000000x1, .i32⟩
  | .hbm, ⟨49, _⟩ => ⟨S2000000x64, .f32⟩
  | .hbm, ⟨50, _⟩ => ⟨S2000000x64, .f32⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S16x64 : S_.BroadcastsInDim S16x64 (![] : Fin 0 → Fin S16x64.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S_S16 : S_.BroadcastsInDim S16 (![] : Fin 0 → Fin S16.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  scatter_S16x64_S2000000x1_S2000000x64_1_0_0_1_wf : ScatterDims.WF S16x64 S2000000x1 S2000000x64 [1] [0] [0] 1
  scatter_S16_S2000000x1_S2000000_n_0_0_1_wf : ScatterDims.WF S16 S2000000x1 S2000000 [] [0] [0] 1
  dot_S16x64_S64x16_S16x16_1_0_0_1_n_n_wf : DotDims.WF S16x64 S64x16 S16x16 [1] [0] [0] [1] [] []
  dot_S16x16_S16x64_S16x64_1_0_0_1_n_n_wf : DotDims.WF S16x16 S16x64 S16x64 [1] [0] [0] [1] [] []
  gather_S16x64_S2000000x1_S2000000x64_1_0_n_n_0_1_164_wf : GatherDims.WF S16x64 S2000000x1 S2000000x64 [1] [0] [] [0] [] 1 ![1, 64]

variable [Facts₀]

def scatter_S16x64_S2000000x1_S2000000x64_1_0_0_1 : ScatterDims S16x64 S2000000x1 S2000000x64 where
  updateWindowDims := [1]
  insertedWindowDims := [0]
  scatterDimsToOperandDims := [0]
  indexVectorDim := 1
  wf := scatter_S16x64_S2000000x1_S2000000x64_1_0_0_1_wf
def scatter_S16_S2000000x1_S2000000_n_0_0_1 : ScatterDims S16 S2000000x1 S2000000 where
  updateWindowDims := []
  insertedWindowDims := [0]
  scatterDimsToOperandDims := [0]
  indexVectorDim := 1
  wf := scatter_S16_S2000000x1_S2000000_n_0_0_1_wf
def dot_S16x64_S64x16_S16x16_1_0_0_1_n_n : DotDims S16x64 S64x16 S16x16 where
  lhsContracting := [1]
  rhsContracting := [0]
  lhsNonContracting := [0]
  rhsNonContracting := [1]
  lhsBatch := []
  rhsBatch := []
  wf := dot_S16x64_S64x16_S16x16_1_0_0_1_n_n_wf
def dot_S16x16_S16x64_S16x64_1_0_0_1_n_n : DotDims S16x16 S16x64 S16x64 where
  lhsContracting := [1]
  rhsContracting := [0]
  lhsNonContracting := [0]
  rhsNonContracting := [1]
  lhsBatch := []
  rhsBatch := []
  wf := dot_S16x16_S16x64_S16x64_1_0_0_1_n_n_wf
def gather_S16x64_S2000000x1_S2000000x64_1_0_n_n_0_1_164 : GatherDims S16x64 S2000000x1 S2000000x64 where
  offsetDims := [1]
  collapsedSliceDims := [0]
  operandBatchingDims := []
  startIndicesBatchingDims := []
  startIndexMap := [0]
  indexVectorDim := 1
  sliceSizes := ![1, 64]
  wf := gather_S16x64_S2000000x1_S2000000x64_1_0_n_n_0_1_164_wf

class Facts : Prop extends Facts₀ where

variable [Facts]
-- ==== Proof.SegMean.lean ====
/-
  Squeeze-and-excite gating by segment means, stated once over the extended reals.

  Rows n < 2 000 000 of x : [2 000 000, 64] each carry a segment word b n. For a segment k < 16,
    sum k c   = the sum of x n c over the rows whose word is k,
    count k   = the number of such rows,
    mean k c  = sum k c / max (count k) 1,
    gate      = sigmoid (relu (mean · W1 + b1) · W2 + b2)      (a [16, 64] table),
    result n c = x n c · Σ_k [b n = k] · gate k c.
  The rows are taken as 100 consecutive blocks of 20 000, the order in which a blocked accumulation meets them;
  `sum_rows` says a sum over all rows is the sum over blocks of the sums over a block's rows.
-/
import Idealize.ShloMosaic.PureOps
import Idealize.ShloMosaic.PureOps.Ideal
import Idealize.ShloMosaic.PureOps.Ideal.Laws
import Idealize.ShloMosaic.Lib.ValueIdx

noncomputable section

namespace Cert.SegMean

open Idealize.ShloMosaic Idealize.ShloMosaic.ValueIdx
open scoped BigOperators

abbrev SNxC : Shape := ⟨2, ![2000000, 64]⟩
abbrev SKxC : Shape := ⟨2, ![16, 64]⟩
abbrev S1xK : Shape := ⟨2, ![1, 16]⟩
abbrev SCxH : Shape := ⟨2, ![64, 16]⟩
abbrev SKxH : Shape := ⟨2, ![16, 16]⟩
abbrev S1xH : Shape := ⟨2, ![1, 16]⟩
abbrev SH : Shape := ⟨1, ![16]⟩
abbrev SHxC : Shape := ⟨2, ![16, 64]⟩
abbrev S1xC : Shape := ⟨2, ![1, 64]⟩
abbrev SC : Shape := ⟨1, ![64]⟩
abbrev S0 : Shape := ⟨0, ![]⟩

/-- Row `r` of block `t`: the blocks are consecutive runs of 20 000 rows. -/
def row (t : Fin 100) (r : Fin 20000) : Fin 2000000 := ⟨20000 * t.val + r.val, by omega⟩

theorem row_val (t : Fin 100) (r : Fin 20000) : (row t r).val = 20000 * t.val + r.val := rfl

/-- A sum over all rows is the sum over the blocks of the sums over each block's rows. -/
theorem sum_rows {M : Type*} [AddCommMonoid M] (f : Fin 2000000 → M) :
    ∑ n : Fin 2000000, f n = ∑ t : Fin 100, ∑ r : Fin 20000, f (row t r) := by
  -- pairs (block, row in block) are the rows, by (t, r) ↦ 20000 t + r
  obtain ⟨e, he⟩ : ∃ e : Fin 100 × Fin 20000 ≃ Fin 2000000, ∀ t r, e (t, r) = row t r :=
    ⟨finProdFinEquiv (m := 100) (n := 20000), fun t r => Fin.ext (by
      show (finProdFinEquiv (m := 100) (n := 20000) (t, r)).val = 20000 * t.val + r.val
      simp only [finProdFinEquiv_apply_val]
      omega)⟩
  calc ∑ n, f n = ∑ p : Fin 100 × Fin 20000, f (e p) := (Equiv.sum_comp e f).symm
    _ = ∑ t : Fin 100, ∑ r : Fin 20000, f (e (t, r)) := Fintype.sum_prod_type _
    _ = _ := Finset.sum_congr rfl fun t _ => Finset.sum_congr rfl fun r _ => by rw [he]

/-- The indicator of "word `b` names segment `k`", as an extended real. -/
def hot (b : BitVec 32) (k : Fin 16) : EReal := if b = BitVec.ofNat 32 k.val then 1 else 0

theorem hot_self (k : Fin 16) : hot (BitVec.ofNat 32 k.val) k = 1 := if_pos rfl

/-- A word below 16 names exactly one segment: the sum over the segments of the indicator times a table's column
    is the table's entry at the word. -/
theorem sum_hot_mul (b : BitVec 32) (hb : b.toNat < 16) (g : Fin 16 → EReal) :
    ∑ k : Fin 16, hot b k * g k = g ⟨b.toNat, hb⟩ := by
  -- only the segment the word names contributes
  rw [Finset.sum_eq_single (⟨b.toNat, hb⟩ : Fin 16)]
  · unfold hot
    rw [if_pos (by simp), one_mul]
  · intro k _ hk
    unfold hot
    rw [if_neg, zero_mul]
    intro h
    apply hk
    apply Fin.ext
    subst h
    have := k.isLt
    simp only [BitVec.toNat_ofNat]
    omega
  · intro h; exact absurd (Finset.mem_univ _) h

/-- Segment `k`'s sum of column `c`, block by block. -/
def segSumAt (b : Fin 2000000 → BitVec 32) (x : FVec Ideal SNxC .f32) (k : Fin 16) (c : Fin 64) : EReal :=
  ∑ t : Fin 100, ∑ r : Fin 20000, hot (b (row t r)) k * x (ix2 (row t r) c)

/-- Segment `k`'s row count, block by block. -/
def segCntAt (b : Fin 2000000 → BitVec 32) (k : Fin 16) : EReal :=
  ∑ t : Fin 100, ∑ r : Fin 20000, hot (b (row t r)) k

/-- The [16, 64] table of segment sums. -/
def segSum (b : Fin 2000000 → BitVec 32) (x : FVec Ideal SNxC .f32) : FVec Ideal SKxC .f32 :=
  fun j => segSumAt b x (j 0) (j 1)

/-- The [1, 16] row of segment counts. -/
def segCnt (b : Fin 2000000 → BitVec 32) : FVec Ideal S1xK .f32 :=
  fun j => segCntAt b (j 1)

theorem segSum_apply (b : Fin 2000000 → BitVec 32) (x : FVec Ideal SNxC .f32) (k : Fin 16) (c : Fin 64) :
    segSum b x (ix2 k c) = segSumAt b x k c := rfl

theorem segCnt_apply (b : Fin 2000000 → BitVec 32) (k : Fin 16) :
    segCnt b (ix2 (0 : Fin 1) k) = segCntAt b k := rfl

/-- The segment mean: the sum over the count, the count raised to at least one (the word is f32 one). -/
def meanOf (sum : FVec Ideal SKxC .f32) (cnt : Fin 16 → EReal) : FVec Ideal SKxC .f32 :=
  fun j => Ideal.div (sum j) (max (cnt (j 0)) (Ideal.ofBits .f32 0x3F800000#32))

/-- The contraction records of the two small matrix products: [16,64]·[64,16] and [16,16]·[16,64], each over the
    left operand's second axis and the right operand's first. -/
def dotIn : DotDims SKxC SCxH SKxH where
  lhsContracting := [1]
  rhsContracting := [0]
  lhsNonContracting := [0]
  rhsNonContracting := [1]
  lhsBatch := []
  rhsBatch := []
  wf := by decide
def dotOut : DotDims SKxH SHxC SKxC where
  lhsContracting := [1]
  rhsContracting := [0]
  lhsNonContracting := [0]
  rhsNonContracting := [1]
  lhsBatch := []
  rhsBatch := []
  wf := by decide

theorem bc_0_KxC : S0.BroadcastsInDim SKxC (![] : Fin 0 → Fin SKxC.rank) := by decide
theorem bc_0_KxH : S0.BroadcastsInDim SKxH (![] : Fin 0 → Fin SKxH.rank) := by decide
theorem bc_H_1xH : SH.BroadcastsInDim S1xH (![1] : Fin 1 → Fin S1xH.rank) := by decide
theorem bc_1xH_KxH : S1xH.BroadcastsInDim SKxH (![0, 1] : Fin 2 → Fin SKxH.rank) := by decide
theorem bc_C_1xC : SC.BroadcastsInDim S1xC (![1] : Fin 1 → Fin S1xC.rank) := by decide
theorem bc_1xC_KxC : S1xC.BroadcastsInDim SKxC (![0, 1] : Fin 2 → Fin SKxC.rank) := by decide

/-- From the segment means to the gate: sigmoid (relu (mean · W1 + b1) · W2 + b2), the sigmoid spelt
    1 / (1 + exp (-z)). One function of the means and the four weight arrays; both programs apply exactly this
    chain of host operations, so it is carried whole and never opened. -/
def gateOf {F : FTy → Type} [FloatOps F] (mean : FVec F SKxC .f32) (W1 : FVec F SCxH .f32) (b1 : FVec F SH .f32)
    (W2 : FVec F SHxC .f32) (b2 : FVec F SC .f32) : FVec F SKxC .f32 :=
  Host.divf (broadcastInDim SKxC ![] bc_0_KxC (constant (F := F) S0 .f32 0x3F800000#32))
    (addf (broadcastInDim SKxC ![] bc_0_KxC (constant (F := F) S0 .f32 0x3F800000#32))
      (Host.exp (Host.negf
        (addf
          (Host.dotGeneral dotOut none
            (maximumf
              (addf (Host.dotGeneral dotIn none mean W1)
                (broadcastInDim SKxH ![0, 1] bc_1xH_KxH (broadcastInDim S1xH ![1] bc_H_1xH b1)))
              (broadcastInDim SKxH ![] bc_0_KxH (constant (F := F) S0 .f32 0x00000000#32)))
            W2)
          (broadcastInDim SKxC ![0, 1] bc_1xC_KxC (broadcastInDim S1xC ![1] bc_C_1xC b2))))))

/-- Each row times its own segment's gate row: `x n c · Σ_k [b n = k] · g k c`. -/
def gated (b : Fin 2000000 → BitVec 32) (x : FVec Ideal SNxC .f32) (g : FVec Ideal SKxC .f32) : FVec Ideal SNxC .f32 :=
  fun i => x i * ∑ k : Fin 16, hot (b (i 0)) k * g (ix2 k (i 1))

/-- The whole result as one function of the six argument arrays (`b` the segment words read row by row). -/
def result (b : Fin 2000000 → BitVec 32) (x : FVec Ideal SNxC .f32) (W1 : FVec Ideal SCxH .f32) (b1 : FVec Ideal SH .f32)
    (W2 : FVec Ideal SHxC .f32) (b2 : FVec Ideal SC .f32) : FVec Ideal SNxC .f32 :=
  gated b x (gateOf (meanOf (segSum b x) (segCntAt b)) W1 b1 W2 b2)

end Cert.SegMean

end
-- ==== Proof.OneHot.lean ====
/-
  The one-hot matrix both kernel bodies build from a block of segment words: entry (r, k) is 1 when row r's word is k
  and 0 otherwise — the compare of the broadcast words against a lane iota, widened and converted to a float —
  which is the indicator `SegMean.hot`.
-/
import proofs.«412113_j23235773072056_1_alg».proof.KernelIdeal
import proofs.«412113_j23235773072056_1_alg».proof.Proof.SegMean
import Idealize.ShloMosaic.Lib.Pipeline.Value
import Idealize.ShloMosaic.Lib.ValueIdx
import Idealize.ShloMosaic.Lib.Affine

noncomputable section

open Idealize.ShloMosaic Idealize.ShloMosaic.ValueIdx

namespace Cert.KernelIdeal.OneHot

open Cert.KernelIdeal

/-- Entry (r, k) of the one-hot matrix of a block of words `w` is the indicator that row r's word is k. The shape
    facts are arguments: the statement holds for whichever proofs of them a term carries. -/
theorem entry (w : IVec S20000x1 32) (hsc : S20000x1.ShapeCasts S20000x1) (hbc : S20000x1.Broadcasts S20000x16)
    (hio : S20000x16.Iotas .tc 32 [1]) (hlt : 1 < 32) (r : Fin 20000) (k : Fin 16) :
    (sitofp (F := Ideal) .f32
        (extui 32 (cmpi .eq (broadcastTo S20000x16 (shapeCast S20000x1 w hsc) hbc) (iota .tc S20000x16 32 [1] hio)) hlt))
      (ix2 r k) = Cert.SegMean.hot (w (ix2 r (0 : Fin 1))) k := by
  have hb : broadcastTo S20000x16 (shapeCast S20000x1 w hsc) hbc (ix2 r k) = w (ix2 r (0 : Fin 1)) := by
    rw [shapeCast_self]
    exact broadcastTo_apply w hbc (ix2 r k) (ix2 r (0 : Fin 1)) (fun a => by
      match a with
      | ⟨0, _⟩ => rfl
      | ⟨1, _⟩ => rfl)
  have hi : iota .tc S20000x16 32 [1] hio (ix2 r k) = BitVec.ofNat 32 k.val :=
    iota_single_apply .tc S20000x16 32 1 hio (ix2 r k)
  show (((IntOp.cmpi .eq (broadcastTo S20000x16 (shapeCast S20000x1 w hsc) hbc (ix2 r k))
      (iota .tc S20000x16 32 [1] hio (ix2 r k))).setWidth 32).toInt : ℝ) = Cert.SegMean.hot (w (ix2 r (0 : Fin 1))) k
  rw [hb, hi]
  unfold Cert.SegMean.hot
  by_cases h : w (ix2 r (0 : Fin 1)) = BitVec.ofNat 32 k.val
  · rw [if_pos h, IntOp.cmpi_eq.2 h]
    norm_num
  · rw [if_neg h, eq_zero_of_ne_one (mt IntOp.cmpi_eq.1 h)]
    norm_num

end Cert.KernelIdeal.OneHot

end
-- ==== Proof.SumRegion.lean ====
/-
  Region 0 (the blocked reduction): what its two output arrays hold when the region ends.
  The output blocks never move, are reset at the first grid point and written back after the last, so each array ends
  at the accumulation over all 100 points: the segment sums and the segment counts of SegMean.lean.
-/
import proofs.«412113_j23235773072056_1_alg».proof.Proof.Gen.KernelIdeal.Frame
import proofs.«412113_j23235773072056_1_alg».proof.Proof.SegMean
import proofs.«412113_j23235773072056_1_alg».proof.Proof.OneHot
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.SumRegion

open Cert.KernelIdeal Cert.KernelIdeal.Gen

/-! ## What each control case leaves in the two output blocks

  At the first point the body stores the zero block, reads it back and stores the update over it; at every other
  point it stores the update over what the point before left. Either way the block ends at ONE payload: the sums
  payload or the counts payload of the point's input blocks and the running block. -/

section Pieces
variable {F : FTy → Type} [FloatOps F]

theorem hz : (![0, 0] : Fin 2 → Nat) = fun _ => 0 := funext fun a => by fin_cases a <;> rfl

/-- First point, sums block: the update of the zero block. -/
theorem out_A_2 (c : Dev nD) (i : grid0.Coords) (a1 : Memref sig .tc .vmem S20000x1 .i32) (h1 : a1.IsWhole)
    (a2 : Memref sig .tc .vmem S20000x64 .f32) (h2 : a2.IsWhole) (a3 : Memref sig .tc .vmem S16x64 .f32) (h3 : a3.IsWhole)
    (a4 : Memref sig .tc .vmem S1x16 .f32) (h4 : a4.IsWhole) (hc : cond0_0 i)
    (x0 : Vec F S20000x1 .i32) (x1 : Vec F S20000x64 .f32) :
    out0_A_2 c i a1 h1 a2 h2 a3 h3 a4 h4 hc x0 x1 = k0_pay4 x0 x1 (k0_pay1 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S16x64) hz, View.readCov_unit_zero (S := S16x64) _ hz]
  simp only [View.readAt_eq_ld, h1.read_unread, h2.read_unread, View.ld_unit_zero (S := S20000x1) hz,
    View.ld_unit_zero (S := S20000x64) hz]

/-- First point, counts block: the update of the zero row. -/
theorem out_A_3 (c : Dev nD) (i : grid0.Coords) (a1 : Memref sig .tc .vmem S20000x1 .i32) (h1 : a1.IsWhole)
    (a2 : Memref sig .tc .vmem S20000x64 .f32) (h2 : a2.IsWhole) (a3 : Memref sig .tc .vmem S16x64 .f32) (h3 : a3.IsWhole)
    (a4 : Memref sig .tc .vmem S1x16 .f32) (h4 : a4.IsWhole) (hc : cond0_0 i)
    (x0 : Vec F S20000x1 .i32) (x1 : Vec F S20000x64 .f32) :
    out0_A_3 c i a1 h1 a2 h2 a3 h3 a4 h4 hc x0 x1 = k0_pay5 x0 (k0_pay2 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x16) hz, View.readCov_unit_zero (S := S1x16) _ hz]
  simp only [View.readAt_eq_ld, h1.read_unread, View.ld_unit_zero (S := S20000x1) hz]

/-- Later points, sums block: the update of the running block. -/
theorem out_B_2 (c : Dev nD) (i : grid0.Coords) (a1 : Memref sig .tc .vmem S20000x1 .i32) (h1 : a1.IsWhole)
    (a2 : Memref sig .tc .vmem S20000x64 .f32) (h2 : a2.IsWhole) (a3 : Memref sig .tc .vmem S16x64 .f32) (h3 : a3.IsWhole)
    (a4 : Memref sig .tc .vmem S1x16 .f32) (h4 : a4.IsWhole) (hc : ¬cond0_0 i)
    (x0 : Vec F S20000x1 .i32) (x1 : Vec F S20000x64 .f32) (xo2 : Vec F S16x64 .f32) (xo3 : Vec F S1x16 .f32) :
    out0_B_2 c i a1 h1 a2 h2 a3 h3 a4 h4 hc x0 x1 xo2 xo3 = k0_pay4 x0 x1 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero (S := S16x64) hz]
  simp only [View.readAt_eq_ld, h1.read_unread, h2.read_unread, h3.read_unread, View.ld_unit_zero (S := S20000x1) hz,
    View.ld_unit_zero (S := S20000x64) hz, View.ld_unit_zero (S := S16x64) hz]

/-- Later points, counts block: the update of the running row. -/
theorem out_B_3 (c : Dev nD) (i : grid0.Coords) (a1 : Memref sig .tc .vmem S20000x1 .i32) (h1 : a1.IsWhole)
    (a2 : Memref sig .tc .vmem S20000x64 .f32) (h2 : a2.IsWhole) (a3 : Memref sig .tc .vmem S16x64 .f32) (h3 : a3.IsWhole)
    (a4 : Memref sig .tc .vmem S1x16 .f32) (h4 : a4.IsWhole) (hc : ¬cond0_0 i)
    (x0 : Vec F S20000x1 .i32) (x1 : Vec F S20000x64 .f32) (xo2 : Vec F S16x64 .f32) (xo3 : Vec F S1x16 .f32) :
    out0_B_3 c i a1 h1 a2 h2 a3 h3 a4 h4 hc x0 x1 xo2 xo3 = k0_pay5 x0 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero (S := S1x16) hz]
  simp only [View.readAt_eq_ld, h1.read_unread, h4.read_unread, View.ld_unit_zero (S := S20000x1) hz,
    View.ld_unit_zero (S := S1x16) hz]

end Pieces

/-! ## The two payloads at an index, over the extended reals -/

section Payloads
open Cert.SegMean (hot)

/-- Entry (r, k) of a block's one-hot matrix is the indicator that row r's word names segment k. -/
theorem onehot_apply (w : IVec S20000x1 32) (r : Fin 20000) (k : Fin 16) :
    k0_pay3 (F := Ideal) w (ix2 r k) = hot (w (ix2 r (0 : Fin 1))) k :=
  Cert.KernelIdeal.OneHot.entry w shapeCasts_S20000x1_S20000x1 broadcasts_S20000x1_S20000x16 iota_S20000x16_d1_w32
    natLt_1_32 r k

/-- The operand indices of the product onehotᵀ · x, which contracts the row axis of both operands: at output (k, c)
    and row r the left operand is read at (r, k) and the right at (r, c). -/
theorem lhs_rows_0 (i : S16x64.Idx) (q : dot_S20000x16_S20000x64_S16x64_0_0_1_1_n_n.contr.Idx) :
    (dot_S20000x16_S20000x64_S16x64_0_0_1_1_n_n.lhsIdx i q 0).val = (q ⟨0, by decide⟩).val :=
  dot_S20000x16_S20000x64_S16x64_0_0_1_1_n_n.lhsIdx_val_of_single rfl i q
theorem lhs_rows_1 (i : S16x64.Idx) (q : dot_S20000x16_S20000x64_S16x64_0_0_1_1_n_n.contr.Idx) :
    (dot_S20000x16_S20000x64_S16x64_0_0_1_1_n_n.lhsIdx i q 1).val = (i 0).val := by
  unfold DotDims.lhsIdx
  rw [dif_neg (show ¬(1 : Fin S20000x16.rank) ∈ dot_S20000x16_S20000x64_S16x64_0_0_1_1_n_n.lhsBatch by decide), dif_pos (show (1 : Fin S20000x16.rank) ∈ dot_S20000x16_S20000x64_S16x64_0_0_1_1_n_n.lhsNonContracting by decide)]
  rfl
theorem rhs_rows_0 (i : S16x64.Idx) (q : dot_S20000x16_S20000x64_S16x64_0_0_1_1_n_n.contr.Idx) :
    (dot_S20000x16_S20000x64_S16x64_0_0_1_1_n_n.rhsIdx i q 0).val = (q ⟨0, by decide⟩).val :=
  dot_S20000x16_S20000x64_S16x64_0_0_1_1_n_n.rhsIdx_val_of_single rfl i q
theorem rhs_rows_1 (i : S16x64.Idx) (q : dot_S20000x16_S20000x64_S16x64_0_0_1_1_n_n.contr.Idx) :
    (dot_S20000x16_S20000x64_S16x64_0_0_1_1_n_n.rhsIdx i q 1).val = (i 1).val := by
  unfold DotDims.rhsIdx
  rw [dif_neg (show ¬(1 : Fin S20000x64.rank) ∈ dot_S20000x16_S20000x64_S16x64_0_0_1_1_n_n.rhsBatch by decide), dif_pos (show (1 : Fin S20000x64.rank) ∈ dot_S20000x16_S20000x64_S16x64_0_0_1_1_n_n.rhsNonContracting by decide)]
  rfl

/-- The product onehotᵀ · x into the zero block, at (k, c): the sum over the block's rows of the indicator times x. -/
theorem rows_matmul_apply (w : IVec S20000x1 32) (x : FVec Ideal S20000x64 .f32) (k : Fin 16) (cc : Fin 64) :
    matmul dot_S20000x16_S20000x64_S16x64_0_0_1_1_n_n (some .fp32) (k0_pay3 (F := Ideal) w) x
        (constant (F := Ideal) S16x64 .f32 0x00000000#32) (ix2 k cc)
      = ∑ r : Fin 20000, hot (w (ix2 r (0 : Fin 1))) k * x (ix2 r cc) := by
  simp only [matmul]
  rw [Ideal.matmul_constant_zero_apply, ← Equiv.sum_comp (contrEquiv1 dot_S20000x16_S20000x64_S16x64_0_0_1_1_n_n 20000 rfl rfl).symm]
  refine Finset.sum_congr rfl fun r _ => ?_
  have hk := contrEquiv1_symm_val dot_S20000x16_S20000x64_S16x64_0_0_1_1_n_n 20000 rfl rfl r
  have el : dot_S20000x16_S20000x64_S16x64_0_0_1_1_n_n.lhsIdx (ix2 k cc) ((contrEquiv1 dot_S20000x16_S20000x64_S16x64_0_0_1_1_n_n 20000 rfl rfl).symm r) = ix2 r k := funext fun a => Fin.ext (by
    match a with
    | ⟨0, _⟩ => exact (lhs_rows_0 _ _).trans hk
    | ⟨1, _⟩ => exact lhs_rows_1 _ _)
  have er : dot_S20000x16_S20000x64_S16x64_0_0_1_1_n_n.rhsIdx (ix2 k cc) ((contrEquiv1 dot_S20000x16_S20000x64_S16x64_0_0_1_1_n_n 20000 rfl rfl).symm r) = ix2 r cc := funext fun a => Fin.ext (by
    match a with
    | ⟨0, _⟩ => exact (rhs_rows_0 _ _).trans hk
    | ⟨1, _⟩ => exact rhs_rows_1 _ _)
  rw [el, er, onehot_apply]

/-- The sums payload at (k, c): the running entry plus the block's rows of segment k, column c. -/
theorem sums_apply (w : IVec S20000x1 32) (x : FVec Ideal S20000x64 .f32) (acc : FVec Ideal S16x64 .f32) (k : Fin 16) (cc : Fin 64) :
    k0_pay4 (F := Ideal) w x acc (ix2 k cc) = acc (ix2 k cc) + ∑ r : Fin 20000, hot (w (ix2 r (0 : Fin 1))) k * x (ix2 r cc) := by
  show (shapeCast S16x64 acc shapeCasts_S16x64_S16x64) (ix2 k cc)
    + matmul dot_S20000x16_S20000x64_S16x64_0_0_1_1_n_n (some .fp32) (k0_pay3 (F := Ideal) w) x
        (constant (F := Ideal) S16x64 .f32 0x00000000#32) (ix2 k cc) = _
  rw [rows_matmul_apply, shapeCast_self]

/-- The lane sum over the rows of the one-hot matrix, at lane k: the number of the block's rows of segment k. -/
theorem rows_reduce_apply (w : IVec S20000x1 32) (hφ : FKind.Formats .f32)
    (hacc : (0x00000000#32 : BitVec FTy.f32.bits) = FKind.add.neutral .f32 hφ) (j : S16.Idx) :
    multiReduction (F := Ideal) .add [0] S16 (k0_pay3 (F := Ideal) w) 0x00000000#32 reduces_S20000x16_S16 hφ hacc j
      = ∑ r : Fin 20000, hot (w (ix2 r (0 : Fin 1))) (j 0) := by
  have e : ∀ r : Fin 20000, reduces_S20000x16_S16.lift j r = (ix2 r (j 0) : S20000x16.Idx) := fun r =>
    funext fun a => Fin.ext (by
      match a with
      | ⟨0, _⟩ => rfl
      | ⟨1, _⟩ => rfl)
  refine (Ideal.multiReduction_add_single (k0_pay3 (F := Ideal) w) 0x00000000#32 reduces_S20000x16_S16 hφ hacc j).trans ?_
  exact Finset.sum_congr rfl fun r _ => (congrArg (k0_pay3 (F := Ideal) w) (e r)).trans (onehot_apply w r (j 0))

/-- The counts payload at (0, k): the running entry plus the number of the block's rows of segment k. -/
theorem counts_apply (w : IVec S20000x1 32) (acc : FVec Ideal S1x16 .f32) (k : Fin 16) :
    k0_pay5 (F := Ideal) w acc (ix2 (0 : Fin 1) k) = acc (ix2 (0 : Fin 1) k) + ∑ r : Fin 20000, hot (w (ix2 r (0 : Fin 1))) k := by
  show (shapeCast S1x16 acc shapeCasts_S1x16_S1x16) (ix2 (0 : Fin 1) k)
    + (shapeCast S1x16 (multiReduction (F := Ideal) .add [0] S16 (k0_pay3 (F := Ideal) w) 0x00000000#32 reduces_S20000x16_S16 (.inl rfl) rfl)
        shapeCasts_S16_S1x16) (ix2 (0 : Fin 1) k) = _
  rw [shapeCast_self, shapeCast_addUnit_apply (n := 1) ![16]]
  exact congrArg (acc (ix2 (0 : Fin 1) k) + ·) (rows_reduce_apply w _ _ _)

/-- The zero block and the zero row the first point stores read 0 everywhere. -/
theorem zero_block_apply (i : S16x64.Idx) : k0_pay1 (F := Ideal) i = 0 := Ideal.ofBits_zero_f32
theorem zero_row_apply (i : S1x16.Idx) : k0_pay2 (F := Ideal) i = 0 := Ideal.ofBits_zero_f32

end Payloads

variable (V : (c : Dev nD) → (b : Ref sig .tc) → Buf (Elt Ideal) ((c : Thread nD τ).loc b))

/-- The segment word of row `n`, read off the [2000000, 1] index array as the region finds it. -/
abbrev words (c : Dev nD) : Fin 2000000 → BitVec 32 := fun n => (V c main_v0 : IVec S2000000x1 32) (ix2 n (0 : Fin 1))

/-! ## A point's input blocks are 20 000 consecutive rows of the two input arrays -/

section Blocks
open Cert.SegMean (hot row)

/-- The rows array as the region finds it, at its literal type. -/
abbrev xarr (c : Dev nD) : FVec Ideal S2000000x64 .f32 := V c main_arg0

/-- The printed index maps, decided over the grid: both input windows are at block (t, 0) at point t, both output
    windows at block (0, 0) at every point. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row r of point t's block of segment words is the word of row 20000 t + r. -/
theorem wblk_apply (c : Dev nD) (t : Fin cfg0.N) (ht : t.val < 100) (r : Fin 20000) :
    (iblk0 V c 0 t : IVec S20000x1 32) (ix2 r (0 : Fin 1)) = words V c (row ⟨t.val, ht⟩ r) := by
  obtain ⟨e0, e1, -⟩ := idx_facts t
  show V c main_v0 (((cfg0.win 0).blk t).view.emb (ix2 r (0 : Fin 1))) = V c main_v0 (ix2 (row ⟨t.val, ht⟩ r) (0 : Fin 1))
  refine congrArg (V c main_v0) (funext fun a => Fin.ext ?_)
  match a with
  | ⟨0, _⟩ => show win0_0.index t (0 : Fin 2) * 20000 + 1 * r.val = 20000 * t.val + r.val; rw [e0]; omega
  | ⟨1, _⟩ => show win0_0.index t (1 : Fin 2) * 1 + 1 * 0 = 0; rw [e1]

/-- Entry (r, c) of point t's block of x is x at row 20000 t + r, column c. -/
theorem xblk_apply (c : Dev nD) (t : Fin cfg0.N) (ht : t.val < 100) (r : Fin 20000) (cc : Fin 64) :
    (iblk0 V c 1 t : FVec Ideal S20000x64 .f32) (ix2 r cc) = xarr V c (ix2 (row ⟨t.val, ht⟩ r) cc) := by
  obtain ⟨-, -, e0, e1, -⟩ := idx_facts t
  show V c main_arg0 (((cfg0.win 1).blk t).view.emb (ix2 r cc)) = V c main_arg0 (ix2 (row ⟨t.val, ht⟩ r) cc)
  refine congrArg (V c main_arg0) (funext fun a => Fin.ext ?_)
  match a with
  | ⟨0, _⟩ => show win0_1.index t (0 : Fin 2) * 20000 + 1 * r.val = 20000 * t.val + r.val; rw [e0]; omega
  | ⟨1, _⟩ => show win0_1.index t (1 : Fin 2) * 64 + 1 * cc.val = cc.val; rw [e1]; omega

/-- Block t's share of segment k's sum of column c, and of segment k's row count. -/
def blockSum (c : Dev nD) (k : Fin 16) (cc : Fin 64) (t : Fin 100) : EReal :=
  ∑ r : Fin 20000, hot (words V c (row t r)) k * xarr V c (ix2 (row t r) cc)
def blockCnt (c : Dev nD) (k : Fin 16) (t : Fin 100) : EReal :=
  ∑ r : Fin 20000, hot (words V c (row t r)) k

/-- A family over the 100 blocks read at a natural number (zero past the last block), so that the sum over the
    points met so far is a sum over an initial segment of the naturals. -/
def upTo (f : Fin 100 → EReal) (t : ℕ) : EReal := if h : t < 100 then f ⟨t, h⟩ else 0

theorem upTo_of_lt (f : Fin 100 → EReal) (t : ℕ) (h : t < 100) : upTo f t = f ⟨t, h⟩ := dif_pos h

theorem sum_upTo (f : Fin 100 → EReal) : ∑ t ∈ Finset.range 100, upTo f t = ∑ t : Fin 100, f t :=
  (Fin.sum_univ_eq_sum_range (upTo f) 100).symm.trans (Finset.sum_congr rfl fun t _ => upTo_of_lt f t.val t.isLt)

/-- The sums payload of point t's blocks: the running entry plus block t's share. -/
theorem point_sum (c : Dev nD) (t : Fin cfg0.N) (ht : t.val < 100) (acc : FVec Ideal S16x64 .f32) (k : Fin 16) (cc : Fin 64) :
    k0_pay4 (F := Ideal) (iblk0 V c 0 t) (iblk0 V c 1 t) acc (ix2 k cc) = acc (ix2 k cc) + blockSum V c k cc ⟨t.val, ht⟩ := by
  refine (sums_apply (iblk0 V c 0 t) (iblk0 V c 1 t) acc k cc).trans ?_
  refine congrArg (acc (ix2 k cc) + ·) (Finset.sum_congr rfl fun r _ => ?_)
  exact congrArg₂ (fun a b => hot a k * b) (wblk_apply V c t ht r) (xblk_apply V c t ht r cc)

/-- The counts payload of point t's block of words: the running entry plus block t's share. -/
theorem point_cnt (c : Dev nD) (t : Fin cfg0.N) (ht : t.val < 100) (acc : FVec Ideal S1x16 .f32) (k : Fin 16) :
    k0_pay5 (F := Ideal) (iblk0 V c 0 t) acc (ix2 (0 : Fin 1) k) = acc (ix2 (0 : Fin 1) k) + blockCnt V c k ⟨t.val, ht⟩ := by
  refine (counts_apply (iblk0 V c 0 t) acc k).trans ?_
  refine congrArg (acc (ix2 (0 : Fin 1) k) + ·) (Finset.sum_congr rfl fun r _ => ?_)
  exact congrArg (fun a => hot a k) (wblk_apply V c t ht r)

end Blocks

/-! ## The accumulation over the points -/

section Accumulation

/-- After point n the sums block holds, at (k, c), the shares of blocks 0 … n: 0 + share 0 at the first point, the
    block before plus share n after. By induction on the point. -/
theorem sums_inv (c : Dev nD) (k : Fin 16) (cc : Fin 64) : ∀ (n : ℕ) (h : n < cfg0.N),
    (outsAt0 V c n h).1 (ix2 k cc) = ∑ t ∈ Finset.range (n + 1), upTo (blockSum V c k cc) t
  | 0, h => by
    rw [outsAt0_A V c ⟨0, h⟩ rfl]
    dsimp only
    refine (congrFun (out_A_2 (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) ((hcond0_0 ⟨0, h⟩).mpr rfl)
      (iblk0 V c 0 ⟨0, h⟩) (iblk0 V c 1 ⟨0, h⟩)) (ix2 k cc)).trans ?_
    refine (point_sum V c ⟨0, h⟩ (show (0 : ℕ) < 100 by decide) (k0_pay1 (F := Ideal)) k cc).trans ?_
    rw [zero_block_apply, zero_add, Finset.sum_range_one]
    exact (upTo_of_lt _ 0 _).symm
  | n + 1, h => by
    have hN : cfg0.N = 100 := N_0
    have hlt : n + 1 < 100 := by omega
    have hB : ¬(⟨n + 1, h⟩ : Fin cfg0.N).val % 100 = 0 := by dsimp only; omega
    rw [outsAt0_B V c ⟨n + 1, h⟩ hB]
    dsimp only
    refine (congrFun (out_B_2 (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (ms0_3 ⟨n + 1, h⟩) (hs0_3 ⟨n + 1, h⟩)
      (fun hh => hB ((hcond0_0 ⟨n + 1, h⟩).mp hh)) (iblk0 V c 0 ⟨n + 1, h⟩) (iblk0 V c 1 ⟨n + 1, h⟩)
      (outsAt0 V c n (Nat.lt_of_succ_lt h)).1 (outsAt0 V c n (Nat.lt_of_succ_lt h)).2) (ix2 k cc)).trans ?_
    refine (point_sum V c ⟨n + 1, h⟩ hlt (outsAt0 V c n (Nat.lt_of_succ_lt h)).1 k cc).trans ?_
    rw [sums_inv c k cc n (Nat.lt_of_succ_lt h), Finset.sum_range_succ _ (n + 1)]
    exact congrArg (_ + ·) (upTo_of_lt _ (n + 1) hlt).symm

/-- After point n the counts row holds, at k, the shares of blocks 0 … n. -/
theorem cnts_inv (c : Dev nD) (k : Fin 16) : ∀ (n : ℕ) (h : n < cfg0.N),
    (outsAt0 V c n h).2 (ix2 (0 : Fin 1) k) = ∑ t ∈ Finset.range (n + 1), upTo (blockCnt V c k) t
  | 0, h => by
    rw [outsAt0_A V c ⟨0, h⟩ rfl]
    dsimp only
    refine (congrFun (out_A_3 (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) ((hcond0_0 ⟨0, h⟩).mpr rfl)
      (iblk0 V c 0 ⟨0, h⟩) (iblk0 V c 1 ⟨0, h⟩)) (ix2 (0 : Fin 1) k)).trans ?_
    refine (point_cnt V c ⟨0, h⟩ (show (0 : ℕ) < 100 by decide) (k0_pay2 (F := Ideal)) k).trans ?_
    rw [zero_row_apply, zero_add, Finset.sum_range_one]
    exact (upTo_of_lt _ 0 _).symm
  | n + 1, h => by
    have hN : cfg0.N = 100 := N_0
    have hlt : n + 1 < 100 := by omega
    have hB : ¬(⟨n + 1, h⟩ : Fin cfg0.N).val % 100 = 0 := by dsimp only; omega
    rw [outsAt0_B V c ⟨n + 1, h⟩ hB]
    dsimp only
    refine (congrFun (out_B_3 (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (ms0_3 ⟨n + 1, h⟩) (hs0_3 ⟨n + 1, h⟩)
      (fun hh => hB ((hcond0_0 ⟨n + 1, h⟩).mp hh)) (iblk0 V c 0 ⟨n + 1, h⟩) (iblk0 V c 1 ⟨n + 1, h⟩)
      (outsAt0 V c n (Nat.lt_of_succ_lt h)).1 (outsAt0 V c n (Nat.lt_of_succ_lt h)).2) (ix2 (0 : Fin 1) k)).trans ?_
    refine (point_cnt V c ⟨n + 1, h⟩ hlt (outsAt0 V c n (Nat.lt_of_succ_lt h)).2 k).trans ?_
    rw [cnts_inv c k n (Nat.lt_of_succ_lt h), Finset.sum_range_succ _ (n + 1)]
    exact congrArg (_ + ·) (upTo_of_lt _ (n + 1) hlt).symm

end Accumulation

/-! ## The one write-back, after the last point -/

section WriteBack
open Cert.SegMean (hot row)

/-- The segment sums and the segment counts, as contents of the two result arrays. -/
abbrev sumArr (c : Dev nD) : Buf (Elt Ideal) ((c : Thread nD τ).loc main_v1_0) := Cert.SegMean.segSum (words V c) (V c main_arg0)
abbrev cntArr (c : Dev nD) : Buf (Elt Ideal) ((c : Thread nD τ).loc main_v1_1) := Cert.SegMean.segCnt (words V c)

/-- After the last point the sums block is the table of segment sums: the shares of all 100 blocks. -/
theorem last_sum (c : Dev nD) (t : Fin cfg0.N) (h99 : t.val = 99) : (outsAt0 V c t.val t.isLt).1 = sumArr V c := by
  funext j
  obtain ⟨k, cc, rfl⟩ : ∃ (k : Fin 16) (cc : Fin 64), j = ix2 k cc := ⟨j 0, j 1, eq_ix2 j⟩
  refine (sums_inv V c k cc t.val t.isLt).trans ?_
  rw [h99]
  exact sum_upTo (blockSum V c k cc)

/-- After the last point the counts row is the row of segment counts. -/
theorem last_cnt (c : Dev nD) (t : Fin cfg0.N) (h99 : t.val = 99) : (outsAt0 V c t.val t.isLt).2 = cntArr V c := by
  funext j
  obtain ⟨z, k, rfl⟩ : ∃ (z : Fin 1) (k : Fin 16), j = ix2 z k := ⟨j 0, j 1, eq_ix2 j⟩
  obtain rfl : z = 0 := Subsingleton.elim _ _
  refine (cnts_inv V c k t.val t.isLt).trans ?_
  rw [h99]
  exact sum_upTo (blockCnt V c k)

/-- The write-back of the sums block, at point 99 only, writes the table: block (0, 0) of the [16, 64] array read
    through zero offsets is the array. -/
theorem flushed_sum (c : Dev nD) (t : Fin cfg0.N) (hf : (cfg0.win 2).flush t = true) :
    (dat0 (F := Ideal) V c).flushed 2 t = ((cfg0.win 2).blk t).view.read (Elt Ideal) (sumArr V c) := by
  have hN : cfg0.N = 100 := N_0
  have h99 : t.val = 99 := by have := (flush0_2 t).mp hf; have := t.isLt; omega
  obtain ⟨-, -, -, -, z0, z1, -⟩ := idx_facts t
  show (cfg0.win 2).cut (grid0.coords t) ((dat0 (F := Ideal) V c).after 2 t) = _
  rw [after0_2, last_sum V c t h99]
  have hz' : (fun a => win0_2.index t a * main_v1_0.ty.shape.size a) = fun _ => 0 := funext fun a => by
    match a with
    | ⟨0, _⟩ => show win0_2.index t (0 : Fin 2) * 16 = 0; rw [z0]
    | ⟨1, _⟩ => show win0_2.index t (1 : Fin 2) * 64 = 0; rw [z1]
  exact (Memref.read_access_unit_zero (Elt Ideal) main_v1_0 hz' (fun a => by rw [congrFun hz' a]; simp) (sumArr V c)).symm

/-- The write-back of the counts row, at point 99 only, writes the row of counts. -/
theorem flushed_cnt (c : Dev nD) (t : Fin cfg0.N) (hf : (cfg0.win 3).flush t = true) :
    (dat0 (F := Ideal) V c).flushed 3 t = ((cfg0.win 3).blk t).view.read (Elt Ideal) (cntArr V c) := by
  have hN : cfg0.N = 100 := N_0
  have h99 : t.val = 99 := by have := (flush0_3 t).mp hf; have := t.isLt; omega
  obtain ⟨-, -, -, -, -, -, z0, z1⟩ := idx_facts t
  show (cfg0.win 3).cut (grid0.coords t) ((dat0 (F := Ideal) V c).after 3 t) = _
  rw [after0_3, last_cnt V c t h99]
  have hz' : (fun a => win0_3.index t a * main_v1_1.ty.shape.size a) = fun _ => 0 := funext fun a => by
    match a with
    | ⟨0, _⟩ => show win0_3.index t (0 : Fin 2) * 1 = 0; rw [z0]
    | ⟨1, _⟩ => show win0_3.index t (1 : Fin 2) * 16 = 0; rw [z1]
  exact (Memref.read_access_unit_zero (Elt Ideal) main_v1_1 hz' (fun a => by rw [congrFun hz' a]; simp) (cntArr V c)).symm

/-- An index of the sums array is in point t's block iff each coordinate is in the block's range on its axis. -/
theorem mem_sum_blk (t : Fin cfg0.N) (i : S16x64.Idx) :
    i ∈ ((cfg0.win 2).blk t).view.set ↔ ∀ a : Fin 2, win0_2.index t a * S16x64.size a ≤ (i a).val ∧ (i a).val < win0_2.index t a * S16x64.size a + S16x64.size a := by
  show i ∈ ((View.whole main_v1_0).slice (win0_2.rect t)).set ↔ _
  rw [View.set_slice_whole, Rect.mem_set_unit]
  exact Iff.rfl

/-- The same for the counts array. -/
theorem mem_cnt_blk (t : Fin cfg0.N) (i : S1x16.Idx) :
    i ∈ ((cfg0.win 3).blk t).view.set ↔ ∀ a : Fin 2, win0_3.index t a * S1x16.size a ≤ (i a).val ∧ (i a).val < win0_3.index t a * S1x16.size a + S1x16.size a := by
  show i ∈ ((View.whole main_v1_1).slice (win0_3.rect t)).set ↔ _
  rw [View.set_slice_whole, Rect.mem_set_unit]
  exact Iff.rfl

/-- The last point. -/
abbrev tLast : Fin cfg0.N := ⟨99, lt_of_lt_of_eq (by decide : 99 < 100) N_0.symm⟩

end WriteBack

/-- The sums array (window 2) after the region: the segment sums of the rows. -/
theorem final_sum (c : Dev nD) :
    (dat0 (F := Ideal) V c).arrAt 2 cfg0.N = Cert.SegMean.segSum (words V c) (V c main_arg0) :=
  (dat0 (F := Ideal) V c).arrAt_eq_of_cover 2 (sumArr V c) (flushed_sum V c) fun i =>
    ⟨tLast, (flush0_2 tLast).mpr rfl, by
      obtain ⟨-, -, -, -, z0, z1, -⟩ := idx_facts tLast
      rw [mem_sum_blk]
      intro a
      have h0 : (i 0 : Nat) < 16 := (i 0).isLt
      have h1 : (i 1 : Nat) < 64 := (i 1).isLt
      match a with
      | ⟨0, _⟩ => show win0_2.index tLast (0 : Fin 2) * 16 ≤ (i 0 : Nat) ∧ (i 0 : Nat) < win0_2.index tLast (0 : Fin 2) * 16 + 16; rw [z0]; omega
      | ⟨1, _⟩ => show win0_2.index tLast (1 : Fin 2) * 64 ≤ (i 1 : Nat) ∧ (i 1 : Nat) < win0_2.index tLast (1 : Fin 2) * 64 + 64; rw [z1]; omega⟩

/-- The counts array (window 3) after the region: the segment counts. -/
theorem final_cnt (c : Dev nD) :
    (dat0 (F := Ideal) V c).arrAt 3 cfg0.N = Cert.SegMean.segCnt (words V c) :=
  (dat0 (F := Ideal) V c).arrAt_eq_of_cover 3 (cntArr V c) (flushed_cnt V c) fun i =>
    ⟨tLast, (flush0_3 tLast).mpr rfl, by
      obtain ⟨-, -, -, -, -, -, z0, z1⟩ := idx_facts tLast
      rw [mem_cnt_blk]
      intro a
      have h0 : (i 0 : Nat) < 1 := (i 0).isLt
      have h1 : (i 1 : Nat) < 16 := (i 1).isLt
      match a with
      | ⟨0, _⟩ => show win0_3.index tLast (0 : Fin 2) * 1 ≤ (i 0 : Nat) ∧ (i 0 : Nat) < win0_3.index tLast (0 : Fin 2) * 1 + 1; rw [z0]; omega
      | ⟨1, _⟩ => show win0_3.index tLast (1 : Fin 2) * 16 ≤ (i 1 : Nat) ∧ (i 1 : Nat) < win0_3.index tLast (1 : Fin 2) * 16 + 16; rw [z1]; omega⟩

end Cert.KernelIdeal.SumRegion

end
-- ==== Proof.GateRegion.lean ====
/-
  Region 1 (the broadcast multiply): what its output array holds when the region ends.
  Every grid point writes its own block of 20 000 rows, each row of x times the gate row its segment word selects
  (a one-hot row times the gate table), so the array ends at SegMean.gated of the region's three input arrays.
-/
import proofs.«412113_j23235773072056_1_alg».proof.Proof.Gen.KernelIdeal.Frame
import proofs.«412113_j23235773072056_1_alg».proof.Proof.SegMean
import proofs.«412113_j23235773072056_1_alg».proof.Proof.OneHot
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.GateRegion

open Cert.KernelIdeal Cert.KernelIdeal.Gen

variable (V : (c : Dev nD) → (b : Ref sig .tc) → Buf (Elt Ideal) ((c : Thread nD τ).loc b))

/-- The segment word of row `n`, read off the [2000000, 1] index array as the region finds it. -/
abbrev words (c : Dev nD) : Fin 2000000 → BitVec 32 := fun n => (V c main_v0 : IVec S2000000x1 32) (ix2 n (0 : Fin 1))

/-! ## The body's arithmetic at one entry of a block -/

/-- The contraction's operand indices, axis by axis: the one-hot block is read at (row, contracted), the gate
    table at (contracted, column). -/
private theorem lhs_gate_0 (i : S20000x64.Idx) (q : dot_S20000x16_S16x64_S20000x64_1_0_0_1_n_n.contr.Idx) :
    (dot_S20000x16_S16x64_S20000x64_1_0_0_1_n_n.lhsIdx i q 0).val = (i 0).val := by
  unfold DotDims.lhsIdx
  rw [dif_neg (show ¬(0 : Fin S20000x16.rank) ∈ dot_S20000x16_S16x64_S20000x64_1_0_0_1_n_n.lhsBatch by decide), dif_pos (show (0 : Fin S20000x16.rank) ∈ dot_S20000x16_S16x64_S20000x64_1_0_0_1_n_n.lhsNonContracting by decide)]
  rfl
private theorem lhs_gate_1 (i : S20000x64.Idx) (q : dot_S20000x16_S16x64_S20000x64_1_0_0_1_n_n.contr.Idx) :
    (dot_S20000x16_S16x64_S20000x64_1_0_0_1_n_n.lhsIdx i q 1).val = (q ⟨0, by decide⟩).val :=
  dot_S20000x16_S16x64_S20000x64_1_0_0_1_n_n.lhsIdx_val_of_single rfl i q
private theorem rhs_gate_0 (i : S20000x64.Idx) (q : dot_S20000x16_S16x64_S20000x64_1_0_0_1_n_n.contr.Idx) :
    (dot_S20000x16_S16x64_S20000x64_1_0_0_1_n_n.rhsIdx i q 0).val = (q ⟨0, by decide⟩).val :=
  dot_S20000x16_S16x64_S20000x64_1_0_0_1_n_n.rhsIdx_val_of_single rfl i q
private theorem rhs_gate_1 (i : S20000x64.Idx) (q : dot_S20000x16_S16x64_S20000x64_1_0_0_1_n_n.contr.Idx) :
    (dot_S20000x16_S16x64_S20000x64_1_0_0_1_n_n.rhsIdx i q 1).val = (i 1).val := by
  unfold DotDims.rhsIdx
  rw [dif_neg (show ¬(1 : Fin S16x64.rank) ∈ dot_S20000x16_S16x64_S20000x64_1_0_0_1_n_n.rhsBatch by decide), dif_pos (show (1 : Fin S16x64.rank) ∈ dot_S20000x16_S16x64_S20000x64_1_0_0_1_n_n.rhsNonContracting by decide)]
  rfl

/-- Entry (r, c) of what the body stores: the x entry times the gate row that row r's segment word selects
    (the product of the one-hot block with the gate table, accumulated from zero, then the pointwise product with x). -/
theorem payload_apply (w : Vec Ideal S20000x1 .i32) (g : Vec Ideal S16x64 .f32) (x : Vec Ideal S20000x64 .f32) (r : Fin 20000) (c : Fin 64) :
    k1_pay1 (F := Ideal) w g x (ix2 r c) = x (ix2 r c) * ∑ k : Fin 16, Cert.SegMean.hot (w (ix2 r (0 : Fin 1))) k * g (ix2 k c) := by
  unfold k1_pay1
  rw [mulf_apply]
  simp only [matmul]
  rw [Ideal.matmul_constant_zero_apply, ← Equiv.sum_comp (contrEquiv1 dot_S20000x16_S16x64_S20000x64_1_0_0_1_n_n 16 rfl rfl).symm]
  refine congrArg (x (ix2 r c) * ·) (Finset.sum_congr rfl fun k _ => ?_)
  have hk := contrEquiv1_symm_val dot_S20000x16_S16x64_S20000x64_1_0_0_1_n_n 16 rfl rfl k
  have el : dot_S20000x16_S16x64_S20000x64_1_0_0_1_n_n.lhsIdx (ix2 r c) ((contrEquiv1 dot_S20000x16_S16x64_S20000x64_1_0_0_1_n_n 16 rfl rfl).symm k) = ix2 r k := funext fun a => Fin.ext (by
    match a with
    | ⟨0, _⟩ => exact lhs_gate_0 _ _
    | ⟨1, _⟩ => exact (lhs_gate_1 _ _).trans hk)
  have er : dot_S20000x16_S16x64_S20000x64_1_0_0_1_n_n.rhsIdx (ix2 r c) ((contrEquiv1 dot_S20000x16_S16x64_S20000x64_1_0_0_1_n_n 16 rfl rfl).symm k) = ix2 k c := funext fun a => Fin.ext (by
    match a with
    | ⟨0, _⟩ => exact (rhs_gate_0 _ _).trans hk
    | ⟨1, _⟩ => exact rhs_gate_1 _ _)
  rw [el, er, Cert.KernelIdeal.OneHot.entry, shapeCast_self]

/-- The same entry set beside the whole arrays: when the three blocks hold, at (r, c), what the arrays hold at the
    index `i` (the x entry, the row's segment word, the gate column), the stored entry is `SegMean.gated` at `i`. -/
private theorem block_entry (w : Vec Ideal S20000x1 .i32) (g : Vec Ideal S16x64 .f32) (x : Vec Ideal S20000x64 .f32)
    (b : Fin 2000000 → BitVec 32) (X : FVec Ideal Cert.SegMean.SNxC .f32) (G : FVec Ideal Cert.SegMean.SKxC .f32)
    (i : Cert.SegMean.SNxC.Idx) (r : Fin 20000) (cc : Fin 64)
    (hx : x (ix2 r cc) = X i) (hw : w (ix2 r (0 : Fin 1)) = b (i 0))
    (hg : ∀ k : Fin 16, g (ix2 k cc) = G (ix2 k (i 1))) :
    k1_pay1 (F := Ideal) w g x (ix2 r cc) = Cert.SegMean.gated b X G i := by
  rw [payload_apply, hx, hw]
  unfold Cert.SegMean.gated
  exact congrArg (X i * ·) (Finset.sum_congr rfl fun k _ => by rw [hg k])

/-! ## From blocks to the array -/

private theorem zero_offsets : (![0, 0] : Fin 2 → Nat) = fun _ => 0 := funext fun a => by fin_cases a <;> rfl

/-- The printed index maps over the grid: at point `t` the words, the x and the output windows sit at block (t, 0) of
    their arrays, and the gate window at its one block (0, 0). -/
private theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of `SegMean.gated` of the three input arrays as the region finds them:
    row r of the block is row 20000 t + r of x and of the words, and the gate block is the whole table. -/
theorem flushed_eq (c : Dev nD) (t : Fin cfg1.N) :
    (dat1 (F := Ideal) V c).flushed 3 t
      = ((cfg1.win 3).blk t).view.read (Elt Ideal) (Cert.SegMean.gated (words V c) (V c main_arg0) (V c main_v21)) := by
  show (cfg1.win 3).cut (grid1.coords t) ((dat1 (F := Ideal) V c).after 3 t) = _
  rw [after1_3]
  unfold out1_3
  rw [View.canon_unit_zero zero_offsets]
  simp only [View.ld_unit_zero (S := S20000x1) zero_offsets, View.ld_unit_zero (S := S16x64) zero_offsets,
    View.ld_unit_zero (S := S20000x64) zero_offsets]
  obtain ⟨e00, e01, e10, e11, e20, e21, e30, e31⟩ := block_indices t
  apply funext
  intro (j : S20000x64.Idx)
  obtain ⟨r, cc, rfl⟩ : ∃ (r : Fin 20000) (cc : Fin 64), j = ix2 r cc := ⟨j 0, j 1, eq_ix2 j⟩
  show k1_pay1 (F := Ideal) (iblk1 V c 0 t) (iblk1 V c 2 t) (iblk1 V c 1 t) (ix2 r cc)
    = Cert.SegMean.gated (words V c) (V c main_arg0) (V c main_v21) (((cfg1.win 3).blk t).view.emb (ix2 r cc))
  refine block_entry _ _ _ _ _ _ _ r cc ?_ ?_ ?_
  · show V c main_arg0 (((cfg1.win 1).blk t).view.emb (ix2 r cc)) = V c main_arg0 (((cfg1.win 3).blk t).view.emb (ix2 r cc))
    refine congrArg _ (funext fun a => Fin.ext ?_)
    match a with
    | ⟨0, _⟩ => show win1_1.index t (0 : Fin 2) * 20000 + 1 * r.val = win1_3.index t (0 : Fin 2) * 20000 + 1 * r.val; omega
    | ⟨1, _⟩ => show win1_1.index t (1 : Fin 2) * 64 + 1 * cc.val = win1_3.index t (1 : Fin 2) * 64 + 1 * cc.val; omega
  · show V c main_v0 (((cfg1.win 0).blk t).view.emb (ix2 r (0 : Fin 1)))
      = V c main_v0 (ix2 ((((cfg1.win 3).blk t).view.emb (ix2 r cc)) 0) (0 : Fin 1))
    refine congrArg _ (funext fun a => Fin.ext ?_)
    match a with
    | ⟨0, _⟩ => show win1_0.index t (0 : Fin 2) * 20000 + 1 * r.val = win1_3.index t (0 : Fin 2) * 20000 + 1 * r.val; omega
    | ⟨1, _⟩ => show win1_0.index t (1 : Fin 2) * 1 + 1 * 0 = 0; omega
  · intro k
    show V c main_v21 (((cfg1.win 2).blk t).view.emb (ix2 k cc))
      = V c main_v21 (ix2 k ((((cfg1.win 3).blk t).view.emb (ix2 r cc)) 1))
    refine congrArg _ (funext fun a => Fin.ext ?_)
    match a with
    | ⟨0, _⟩ => show win1_2.index t (0 : Fin 2) * 16 + 1 * k.val = k.val; omega
    | ⟨1, _⟩ => show win1_2.index t (1 : Fin 2) * 64 + 1 * cc.val = win1_3.index t (1 : Fin 2) * 64 + 1 * cc.val; omega

/-- An index of the output array is in point `t`'s block iff each coordinate is in the block's range on its axis. -/
private theorem mem_block (t : Fin cfg1.N) (i : S2000000x64.Idx) :
    i ∈ ((cfg1.win 3).blk t).view.set ↔ ∀ a : Fin 2, win1_3.index t a * S20000x64.size a ≤ (i a).val
      ∧ (i a).val < win1_3.index t a * S20000x64.size a + S20000x64.size a := by
  show i ∈ ((View.whole main_v22).slice (win1_3.rect t)).set ↔ _
  rw [View.set_slice_whole, Rect.mem_set_unit]
  exact Iff.rfl

/-- The blocks tile the array: row n lies in the block of point n / 20000, and every point writes its block back. -/
private theorem covered (i : S2000000x64.Idx) :
    ∃ t : Fin cfg1.N, (cfg1.win 3).flush t = true ∧ i ∈ ((cfg1.win 3).blk t).view.set := by
  have hi0 : (i 0).val < 2000000 := (i 0).isLt
  have hi1 : (i 1).val < 64 := (i 1).isLt
  have hN : cfg1.N = 100 := N_1
  refine ⟨⟨(i 0).val / 20000, by rw [hN]; omega⟩, flush1_3 _, ?_⟩
  obtain ⟨-, -, -, -, -, -, e30, e31⟩ := block_indices ⟨(i 0).val / 20000, by rw [hN]; omega⟩
  rw [mem_block]
  intro a
  match a with
  | ⟨0, _⟩ =>
    show win1_3.index ⟨(i 0).val / 20000, _⟩ (0 : Fin 2) * 20000 ≤ (i 0).val
      ∧ (i 0).val < win1_3.index ⟨(i 0).val / 20000, _⟩ (0 : Fin 2) * 20000 + 20000
    rw [e30]; show (i 0).val / 20000 * 20000 ≤ (i 0).val ∧ (i 0).val < (i 0).val / 20000 * 20000 + 20000; omega
  | ⟨1, _⟩ =>
    show win1_3.index ⟨(i 0).val / 20000, _⟩ (1 : Fin 2) * 64 ≤ (i 1).val
      ∧ (i 1).val < win1_3.index ⟨(i 0).val / 20000, _⟩ (1 : Fin 2) * 64 + 64
    rw [e31]; omega

/-- The output array (window 3) after the region. -/
theorem final (c : Dev nD) :
    (dat1 (F := Ideal) V c).arrAt 3 cfg1.N = Cert.SegMean.gated (words V c) (V c main_arg0) (V c main_v21) :=
  (dat1 (F := Ideal) V c).arrAt_eq_of_cover 3 _ (fun t _ => flushed_eq V c t) covered

end Cert.KernelIdeal.GateRegion

end
-- ==== Proof.KernelValue.lean ====
/-
  The idealized kernel's result as one function of its arguments: the buffer contents folded through @main
  (a reshape, region 0, the mean / MLP / sigmoid chain on the host, region 1) and read at the result buffer.

  Each host stretch is read once over an arbitrary valuation: the stretch's result buffer is the stretch's operations
  applied to the buffers it reads. The mean the host computes from region 0's sums and counts — the counts reshaped
  to a column, raised to at least one, broadcast along the columns, the sums divided by that — is the segment mean
  entry by entry, and everything after the mean is the gate chain of the specification, operation for operation.
  The fold is then walked buffer by buffer: a region's array is what its proof data leave, a buffer a stretch does
  not write is what it was before the stretch, and every argument is its launch contents.
-/
import proofs.«412113_j23235773072056_1_alg».proof.Proof.Gen.KernelIdeal.Frame
import proofs.«412113_j23235773072056_1_alg».proof.Proof.SegMean
import proofs.«412113_j23235773072056_1_alg».proof.Proof.SumRegion
import proofs.«412113_j23235773072056_1_alg».proof.Proof.GateRegion
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.KernelValue

open Cert.KernelIdeal Cert.KernelIdeal.Gen

section Host
variable (V : Valuation τ sig (Elt Ideal))

/-- The kernel's mean: the sums over the counts, the counts reshaped to a column, raised to at least one and
    broadcast along the columns. -/
private def kmean (sums : FVec Ideal S16x64 .f32) (cnt : FVec Ideal S1x16 .f32) : FVec Ideal S16x64 .f32 :=
  Host.divf sums (broadcastInDim S16x64 ![0, 1] bcast_S16x1_S16x64_0_1
    (maximumf (shapeCast S16x1 cnt shapeCasts_S1x16_S16x1)
      (broadcastInDim S16x1 ![] bcast_S_S16x1 (constant (F := Ideal) S_ .f32 0x3F800000#32))))

/-- The first host stretch after region 0 leaves the hidden layer before its relu: mean · W1 + b1. -/
private theorem host_hidden :
    (StableHlo.after hostOps1 V (Proc.devRef .tc main_v10) : FVec Ideal S16x16 .f32)
      = addf (Host.dotGeneral (φ₁ := .f32) (φ₂ := .f32) Cert.SegMean.dotIn none
            (kmean (V (Proc.devRef .tc main_v1_0)) (V (Proc.devRef .tc main_v1_1)))
            (V (Proc.devRef .tc main_arg2) : FVec Ideal S64x16 .f32))
          (broadcastInDim Cert.SegMean.SKxH ![0, 1] Cert.SegMean.bc_1xH_KxH
            (broadcastInDim Cert.SegMean.S1xH ![1] Cert.SegMean.bc_H_1xH (V (Proc.devRef .tc main_arg3) : FVec Ideal S16 .f32))) := by
  after_results
  rfl

/-- The second stretch is the relu. -/
private theorem host_relu :
    (StableHlo.after hostOps1_1 V (Proc.devRef .tc main_v11) : FVec Ideal S16x16 .f32)
      = maximumf (V (Proc.devRef .tc main_v10) : FVec Ideal S16x16 .f32)
          (broadcastInDim Cert.SegMean.SKxH ![] Cert.SegMean.bc_0_KxH (constant (F := Ideal) Cert.SegMean.S0 .f32 0x00000000#32)) := by
  after_results
  rfl

/-- The third stretch is the output layer and the sigmoid, spelt 1 / (1 + exp (-z)). -/
private theorem host_sigmoid :
    (StableHlo.after hostOps1_2 V (Proc.devRef .tc main_v21) : FVec Ideal S16x64 .f32)
      = Host.divf (broadcastInDim Cert.SegMean.SKxC ![] Cert.SegMean.bc_0_KxC (constant (F := Ideal) Cert.SegMean.S0 .f32 0x3F800000#32))
          (addf (broadcastInDim Cert.SegMean.SKxC ![] Cert.SegMean.bc_0_KxC (constant (F := Ideal) Cert.SegMean.S0 .f32 0x3F800000#32))
            (Host.exp (Host.negf
              (addf
                (Host.dotGeneral (φ₁ := .f32) (φ₂ := .f32) Cert.SegMean.dotOut none (V (Proc.devRef .tc main_v11) : FVec Ideal S16x16 .f32)
                  (V (Proc.devRef .tc main_arg4) : FVec Ideal S16x64 .f32))
                (broadcastInDim Cert.SegMean.SKxC ![0, 1] Cert.SegMean.bc_1xC_KxC
                  (broadcastInDim Cert.SegMean.S1xC ![1] Cert.SegMean.bc_C_1xC (V (Proc.devRef .tc main_arg5) : FVec Ideal S64 .f32))))))) := by
  after_results
  rfl

end Host

/-- The kernel's mean at an entry: the sum over the count raised to at least one. -/
private theorem kmean_apply (sums : FVec Ideal S16x64 .f32) (cnt : FVec Ideal S1x16 .f32) (k : Fin 16) (c : Fin 64) :
    kmean sums cnt (ix2 k c)
      = Ideal.div (sums (ix2 k c)) (max (cnt (ix2 (0 : Fin 1) k)) (Ideal.ofBits .f32 0x3F800000#32)) := by
  unfold kmean
  show Ideal.div (sums (ix2 k c)) _ = _
  refine congrArg (Ideal.div (sums (ix2 k c))) ?_
  -- the divisor's column broadcast reads column 0 of the [16, 1] maximum
  refine (broadcastInDim_apply (s := S16x1) (t := S16x64) ![0, 1] bcast_S16x1_S16x64_0_1 _ (ix2 k c) (ix2 k (0 : Fin 1)) ?_).trans ?_
  · intro a
    match a with
    | ⟨0, _⟩ => rfl
    | ⟨1, _⟩ => rfl
  show max (shapeCast S16x1 cnt shapeCasts_S1x16_S16x1 (ix2 k (0 : Fin 1)))
      (broadcastInDim S16x1 ![] bcast_S_S16x1 (constant (F := Ideal) S_ .f32 0x3F800000#32) (ix2 k (0 : Fin 1))) = _
  congr 1
  -- the reshape [1, 16] → [16, 1] keeps the row-major position: entry (k, 0) is entry (0, k)
  refine shapeCast_apply cnt shapeCasts_S1x16_S16x1 (ix2 k (0 : Fin 1)) (ix2 (0 : Fin 1) k) ?_
  rw [Shape.rowMajor_val_two, Shape.rowMajor_val_two]
  show 0 * 16 + k.val = k.val * 1 + 0
  omega

/-- The kernel's mean of the segment sums and counts is the segment mean. -/
private theorem kmean_seg (w : Fin 2000000 → BitVec 32) (x : FVec Ideal Cert.SegMean.SNxC .f32) :
    kmean (Cert.SegMean.segSum w x) (Cert.SegMean.segCnt w)
      = Cert.SegMean.meanOf (Cert.SegMean.segSum w x) (Cert.SegMean.segCntAt w) := by
  funext j
  obtain ⟨k, c, rfl⟩ : ∃ (k : Fin 16) (c : Fin 64), j = ix2 k c := ⟨j 0, j 1, eq_ix2 j⟩
  exact kmean_apply _ _ k c

/-- The reshape before region 0 only adds a unit axis: the word column at (n, 0) is the argument's word n. -/
private theorem host_words (V : Valuation τ sig (Elt Ideal)) (n : Fin 2000000) :
    (StableHlo.after hostOps0 V (Proc.devRef .tc main_v0) : IVec S2000000x1 32) (ix2 n (0 : Fin 1))
      = (V (Proc.devRef .tc main_arg1) : IVec S2000000 32) (ix1 n) := by
  after_results
  refine (shapeCast_apply (s := S2000000) (t := S2000000x1) (V (Proc.devRef .tc main_arg1) : IVec S2000000 32)
    shapeCasts_S2000000_S2000000x1 (ix2 n (0 : Fin 1)) (ix1 n) ?_)
  rw [Shape.rowMajor_val_one, Shape.rowMajor_val_two]
  show n.val = n.val * 1 + 0
  omega

variable (m : (ℓ : Loc nD τ sig) → Buf (Elt Ideal) ℓ) (ρ : Dev nD → PrngReg)

/-- A buffer that no operation of a host stretch writes holds after the stretch what it held before it. -/
local macro "stretch_keeps" : tactic => `(tactic|
  exact StableHlo.after_of_forall_not_mem _ _ (List.forall_iff_forall_mem.mp (by
    simp only [hostOps0, hostOps1, hostOps1_1, hostOps1_2, List.Forall, StableHlo.nullary_writes, StableHlo.unary_writes,
      StableHlo.binary_writes, StableHlo.reshape_writes, Finset.mem_singleton]
    repeat' apply And.intro
    all_goals exact StableHlo.devRef_ne_of_ne (by decide))))

/-- The segment word of row `n`, read off the argument `batch_idx`. -/
abbrev words (c : Dev nD) : Fin 2000000 → BitVec 32 := fun n => (m ((c : Thread nD τ).loc main_arg1) : IVec S2000000 32) (ix1 n)

/-! ### Region 0's entry -/

private theorem W1_words (c : Dev nD) : Cert.KernelIdeal.SumRegion.words (V1 m ρ) c = words m c :=
  funext fun n => host_words (W0 m ρ c) n

private theorem W1_arg0 (c : Dev nD) : V1 m ρ c main_arg0 = m ((c : Thread nD τ).loc main_arg0) := by
  show W1 m ρ c (Proc.devRef .tc main_arg0) = W0 m ρ c (Proc.devRef .tc main_arg0)
  stretch_keeps

/-! ### Region 0's exit: the sums and the counts it leaves, the buffers it does not touch -/

private theorem W2_sum (c : Dev nD) :
    W2 m ρ c (Proc.devRef .tc main_v1_0) = Cert.SegMean.segSum (words m c) (m ((c : Thread nD τ).loc main_arg0)) := by
  refine (W2_arr m ρ c 2).trans ((Cert.KernelIdeal.SumRegion.final_sum (V1 m ρ) c).trans ?_)
  rw [W1_words, W1_arg0]

private theorem W2_cnt (c : Dev nD) :
    W2 m ρ c (Proc.devRef .tc main_v1_1) = Cert.SegMean.segCnt (words m c) := by
  refine (W2_arr m ρ c 3).trans ((Cert.KernelIdeal.SumRegion.final_cnt (V1 m ρ) c).trans ?_)
  rw [W1_words]

private theorem W2_arg2 (c : Dev nD) : W2 m ρ c (Proc.devRef .tc main_arg2) = m ((c : Thread nD τ).loc main_arg2) :=
  (W2_of_ne m ρ c main_arg2 (by decide)).trans
    (by show W1 m ρ c (Proc.devRef .tc main_arg2) = W0 m ρ c (Proc.devRef .tc main_arg2); stretch_keeps)

private theorem W2_arg3 (c : Dev nD) : W2 m ρ c (Proc.devRef .tc main_arg3) = m ((c : Thread nD τ).loc main_arg3) :=
  (W2_of_ne m ρ c main_arg3 (by decide)).trans
    (by show W1 m ρ c (Proc.devRef .tc main_arg3) = W0 m ρ c (Proc.devRef .tc main_arg3); stretch_keeps)

/-! ### Region 1's entry: the gate, the words and the rows -/

private theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by stretch_keeps
    _ = W2 m ρ c (Proc.devRef .tc main_arg4) := by stretch_keeps
    _ = W1 m ρ c (Proc.devRef .tc main_arg4) := W2_of_ne m ρ c main_arg4 (by decide)
    _ = W0 m ρ c (Proc.devRef .tc main_arg4) := by stretch_keeps

private theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := by stretch_keeps
    _ = W2 m ρ c (Proc.devRef .tc main_arg5) := by stretch_keeps
    _ = W1 m ρ c (Proc.devRef .tc main_arg5) := W2_of_ne m ρ c main_arg5 (by decide)
    _ = W0 m ρ c (Proc.devRef .tc main_arg5) := by stretch_keeps

/-- The gate table region 1 reads is the gate of the segment means. -/
private theorem W5_gate (c : Dev nD) :
    V5 m ρ c main_v21
      = Cert.SegMean.gateOf (Cert.SegMean.meanOf (Cert.SegMean.segSum (words m c) (m ((c : Thread nD τ).loc main_arg0)))
            (Cert.SegMean.segCntAt (words m c)))
          (m ((c : Thread nD τ).loc main_arg2)) (m ((c : Thread nD τ).loc main_arg3))
          (m ((c : Thread nD τ).loc main_arg4)) (m ((c : Thread nD τ).loc main_arg5)) := by
  refine (host_sigmoid (W4 m ρ c)).trans ?_
  rw [show W4 m ρ c (Proc.devRef .tc main_v11) = _ from host_relu (W3 m ρ c),
    show W3 m ρ c (Proc.devRef .tc main_v10) = _ from host_hidden (W2 m ρ c),
    W2_sum, W2_cnt, W2_arg2, W2_arg3, W4_arg4, W4_arg5, kmean_seg]
  rfl

private theorem W5_words (c : Dev nD) : Cert.KernelIdeal.GateRegion.words (V5 m ρ) c = words m c := by
  funext n
  have e : W5 m ρ c (Proc.devRef .tc main_v0) = W1 m ρ c (Proc.devRef .tc main_v0) :=
    calc W5 m ρ c (Proc.devRef .tc main_v0)
      _ = W4 m ρ c (Proc.devRef .tc main_v0) := by stretch_keeps
      _ = W3 m ρ c (Proc.devRef .tc main_v0) := by stretch_keeps
      _ = W2 m ρ c (Proc.devRef .tc main_v0) := by stretch_keeps
      _ = W1 m ρ c (Proc.devRef .tc main_v0) :=
        (W2_arr m ρ c 0).trans (((dat0 (V1 m ρ) c).arrAt_in 0 rfl _).trans (A_eq0 (V1 m ρ) c 0))
  exact (congrFun e (ix2 n (0 : Fin 1))).trans (host_words (W0 m ρ c) n)

private theorem W5_arg0 (c : Dev nD) : V5 m ρ c main_arg0 = m ((c : Thread nD τ).loc main_arg0) :=
  ((W6_arr m ρ c 1).trans (((dat1 (V5 m ρ) c).arrAt_in 1 rfl _).trans (A_eq1 (V5 m ρ) c 1))).symm.trans
    (W6_main_arg0 m ρ c)

/-- The result buffer at the last boundary of @main's fold is SegMean.result of the launch contents of the arguments. -/
theorem result_eq (c : Dev nD) :
    W6 (F := Ideal) m ρ c (Proc.devRef .tc main_v22)
      = Cert.SegMean.result (words m c) (m ((c : Thread nD τ).loc main_arg0)) (m ((c : Thread nD τ).loc main_arg2))
          (m ((c : Thread nD τ).loc main_arg3)) (m ((c : Thread nD τ).loc main_arg4)) (m ((c : Thread nD τ).loc main_arg5)) := by
  refine (W6_arr m ρ c 3).trans ((Cert.KernelIdeal.GateRegion.final (V5 m ρ) c).trans ?_)
  rw [W5_words, W5_arg0, W5_gate]
  rfl

end Cert.KernelIdeal.KernelValue

end
-- ==== Proof.RefValue.lean ====
/-
  The idealized reference's result as the same function: its two scatter-adds are the segment sums and counts,
  its chain from the means to the gate is the shared one, and where every segment word is below 16 its gather of the
  gate table reads the row the word names, which is what the one-hot sum selects.
-/
import proofs.«412113_j23235773072056_1_alg».proof.Proof.Gen.ReferenceIdeal.Run
import proofs.«412113_j23235773072056_1_alg».proof.Proof.Gen.ReferenceIdeal.Read
import proofs.«412113_j23235773072056_1_alg».proof.Proof.SegMean
import Idealize.ShloMosaic.Lib.Pipeline.Value
import Idealize.ShloMosaic.Lib.ValueLayout
import Idealize.ShloMosaic.Lib.StableHlo.Predicate

noncomputable section

open Idealize.ShloMosaic Idealize.ShloMosaic.TcCoe Idealize.SL.Sem
open Idealize.ShloMosaic.ValueIdx

namespace Cert.ReferenceIdeal.RefValue

open Cert.ReferenceIdeal Cert.ReferenceIdeal.Gen Cert.ReferenceIdeal.Read
open Idealize.ShloMosaic.StableHlo

/-- The segment word of row `n`. -/
abbrev words (x1 : IVec S2000000 32) : Fin 2000000 → BitVec 32 := fun n => x1 (ix1 n)

/-! ## Words -/

/-- A word read signed is the segment number `k` exactly when it is the word of `k`. -/
theorem toInt_eq_iff (b : BitVec 32) (k : Fin 16) : b.toInt = (k.val : Int) ↔ b = BitVec.ofNat 32 k.val := by
  constructor
  · intro h
    apply BitVec.eq_of_toNat_eq
    have hk := k.isLt
    have hb := b.isLt
    rw [BitVec.toInt_eq_toNat_cond] at h
    simp only [BitVec.toNat_ofNat]
    split at h <;> omega
  · intro h
    rw [h]; exact Predicate.toInt_ofNat_small k.val (by have := k.isLt; omega)

/-- A word below 16 is not negative. -/
theorem cmpi_slt_zero (b : BitVec 32) (hb : b.toNat < 16) : IntOp.cmpi .slt b 0#32 = 0#1 := by
  apply ValueIdx.eq_zero_of_ne_one
  intro h
  have h1 := (Predicate.slt_iff_toNat (a := b) (b := 0#32) (by omega) (by decide)).mp h
  have h0 : (0#32 : BitVec 32).toNat = 0 := rfl
  omega

/-- A word below 16, read signed and clamped into [0, 15], is its own value. -/
theorem clamp_word (b : BitVec 32) (hb : b.toNat < 16) : min b.toInt.toNat 15 = b.toNat := by
  rw [Predicate.toInt_eq_toNat_of_lt (by omega)]
  have : ((b.toNat : Int)).toNat = b.toNat := by omega
  rw [this]; exact Nat.min_eq_left (by omega)

/-- The f32 word of one. -/
theorem ofBits_one : Ideal.ofBits .f32 0x3F800000#32 = 1 := by
  simp [Ideal.ofBits, Ideal.ieee, -EReal.coe_mul]; norm_num

/-! ## Sums over a rank-1 index -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Where an update lands -/

/-- An update lands on `i` exactly when, on every axis, its window's start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  split
  · rename_i h
    rw [Option.some.injEq]
    constructor
    · rintro rfl a
      have := h a
      show _ = ((Int.toNat _ : Nat) : Int)
      omega
    · intro e
      funext a
      apply Fin.ext
      have := e a
      show Int.toNat _ = _
      omega
  · rename_i h
    constructor
    · intro e; cases e
    · intro e
      exfalso
      apply h
      intro a
      have := e a
      have := (i a).isLt
      omega

/-! ## The two scatters: an update row lands on the segment its word names -/

/-- The scatter of rows into the [16, 64] table: row `n`'s entry in column `c'` lands on `(k, c)` exactly when
    row `n`'s start index, read signed, is `k` and the columns agree. -/
theorem scatter2_iff (idx : IVec S2000000x1 32) (n : Fin 2000000) (c' : Fin 64) (k : Fin 16) (c : Fin 64) :
    scatter_S16x64_S2000000x1_S2000000x64_1_0_0_1.resultIdx? (ix2 n c') idx = some (ix2 k c)
      ↔ (idx (ix2 n (0 : Fin 1))).toInt = (k.val : Int) ∧ c' = c := by
  have hs0 : scatter_S16x64_S2000000x1_S2000000x64_1_0_0_1.start (ix2 n c') idx (0 : Fin S16x64.rank)
      = (idx (ix2 n (0 : Fin 1))).toInt := by
    unfold ScatterDims.start
    rw [dif_pos (show (0 : Fin S16x64.rank) ∈ scatter_S16x64_S2000000x1_S2000000x64_1_0_0_1.scatterDimsToOperandDims by decide)]
    have hsi : scatter_S16x64_S2000000x1_S2000000x64_1_0_0_1.siIdx (ix2 n c')
        ⟨List.idxOf (0 : Fin S16x64.rank) scatter_S16x64_S2000000x1_S2000000x64_1_0_0_1.scatterDimsToOperandDims,
          List.idxOf_lt_length_iff.2 (by decide)⟩ = ix2 n (0 : Fin 1) := by
      funext b; refine Fin.ext ?_
      match b with
      | ⟨0, _⟩ => rfl
      | ⟨1, _⟩ => rfl
    rw [hsi]
  have hs1 : scatter_S16x64_S2000000x1_S2000000x64_1_0_0_1.start (ix2 n c') idx (1 : Fin S16x64.rank) = 0 := by
    unfold ScatterDims.start
    rw [dif_neg (show ¬ (1 : Fin S16x64.rank) ∈ scatter_S16x64_S2000000x1_S2000000x64_1_0_0_1.scatterDimsToOperandDims by decide)]
  have hw0 : scatter_S16x64_S2000000x1_S2000000x64_1_0_0_1.window (ix2 n c') (0 : Fin S16x64.rank) = 0 := by
    unfold ScatterDims.window
    rw [dif_neg (show ¬ (0 : Fin S16x64.rank) ∈ scatter_S16x64_S2000000x1_S2000000x64_1_0_0_1.sKept by decide)]
  have hw1 : scatter_S16x64_S2000000x1_S2000000x64_1_0_0_1.window (ix2 n c') (1 : Fin S16x64.rank) = c'.val := by
    unfold ScatterDims.window
    rw [dif_pos (show (1 : Fin S16x64.rank) ∈ scatter_S16x64_S2000000x1_S2000000x64_1_0_0_1.sKept by decide)]
    rfl
  rw [resultIdx?_eq_some_iff]
  constructor
  · intro h
    have h0 := h (0 : Fin S16x64.rank)
    have h1 := h (1 : Fin S16x64.rank)
    rw [hs0, hw0] at h0
    rw [hs1, hw1] at h1
    refine ⟨by simpa using h0, Fin.ext ?_⟩
    have : ((c'.val : Nat) : Int) = (c.val : Int) := by simpa using h1
    omega
  · rintro ⟨h0, rfl⟩ a
    match a with
    | ⟨0, _⟩ =>
      show scatter_S16x64_S2000000x1_S2000000x64_1_0_0_1.start (ix2 n c') idx (0 : Fin S16x64.rank)
        + scatter_S16x64_S2000000x1_S2000000x64_1_0_0_1.window (ix2 n c') (0 : Fin S16x64.rank) = (k.val : Int)
      rw [hs0, hw0, h0]; simp
    | ⟨1, _⟩ =>
      show scatter_S16x64_S2000000x1_S2000000x64_1_0_0_1.start (ix2 n c') idx (1 : Fin S16x64.rank)
        + scatter_S16x64_S2000000x1_S2000000x64_1_0_0_1.window (ix2 n c') (1 : Fin S16x64.rank) = (c'.val : Int)
      rw [hs1, hw1]; simp

/-- The scatter of ones into the [16] vector: row `n`'s one lands on `k` exactly when row `n`'s start index, read
    signed, is `k`. -/
theorem scatter1_iff (idx : IVec S2000000x1 32) (n : Fin 2000000) (k : Fin 16) :
    scatter_S16_S2000000x1_S2000000_n_0_0_1.resultIdx? (ix1 n) idx = some (ix1 k)
      ↔ (idx (ix2 n (0 : Fin 1))).toInt = (k.val : Int) := by
  have hs0 : scatter_S16_S2000000x1_S2000000_n_0_0_1.start (ix1 n) idx (0 : Fin S16.rank)
      = (idx (ix2 n (0 : Fin 1))).toInt := by
    unfold ScatterDims.start
    rw [dif_pos (show (0 : Fin S16.rank) ∈ scatter_S16_S2000000x1_S2000000_n_0_0_1.scatterDimsToOperandDims by decide)]
    have hsi : scatter_S16_S2000000x1_S2000000_n_0_0_1.siIdx (ix1 n)
        ⟨List.idxOf (0 : Fin S16.rank) scatter_S16_S2000000x1_S2000000_n_0_0_1.scatterDimsToOperandDims,
          List.idxOf_lt_length_iff.2 (by decide)⟩ = ix2 n (0 : Fin 1) := by
      funext b; refine Fin.ext ?_
      match b with
      | ⟨0, _⟩ => rfl
      | ⟨1, _⟩ => rfl
    rw [hsi]
  have hw0 : scatter_S16_S2000000x1_S2000000_n_0_0_1.window (ix1 n) (0 : Fin S16.rank) = 0 := by
    unfold ScatterDims.window
    rw [dif_neg (show ¬ (0 : Fin S16.rank) ∈ scatter_S16_S2000000x1_S2000000_n_0_0_1.sKept by decide)]
  rw [resultIdx?_eq_some_iff]
  constructor
  · intro h
    have h0 := h (0 : Fin S16.rank)
    rw [hs0, hw0] at h0
    simpa using h0
  · intro h0 a
    match a with
    | ⟨0, _⟩ =>
      show scatter_S16_S2000000x1_S2000000_n_0_0_1.start (ix1 n) idx (0 : Fin S16.rank)
        + scatter_S16_S2000000x1_S2000000_n_0_0_1.window (ix1 n) (0 : Fin S16.rank) = (k.val : Int)
      rw [hs0, hw0, h0]; simp

/-! ## The gather: row `n` reads the table row its start index names, read signed and clamped into [0, 15] -/

theorem gather_row (idx : IVec S2000000x1 32) (n : Fin 2000000) (c : Fin 64) :
    (gather_S16x64_S2000000x1_S2000000x64_1_0_n_n_0_1_164.operandIdx (ix2 n c) idx (0 : Fin S16x64.rank)).val
      = min (idx (ix2 n (0 : Fin 1))).toInt.toNat 15 := by
  show gather_S16x64_S2000000x1_S2000000x64_1_0_n_n_0_1_164.start (ix2 n c) idx (0 : Fin S16x64.rank)
    + gather_S16x64_S2000000x1_S2000000x64_1_0_n_n_0_1_164.batchCoord (ix2 n c) (0 : Fin S16x64.rank)
    + gather_S16x64_S2000000x1_S2000000x64_1_0_n_n_0_1_164.offCoord (ix2 n c) (0 : Fin S16x64.rank) = _
  rw [GatherDims.batchCoord_eq_zero _ _ _ (show ¬ (0 : Fin S16x64.rank) ∈ gather_S16x64_S2000000x1_S2000000x64_1_0_n_n_0_1_164.operandBatchingDims by decide),
    GatherDims.offCoord_eq_zero _ _ _ (show ¬ (0 : Fin S16x64.rank) ∈ gather_S16x64_S2000000x1_S2000000x64_1_0_n_n_0_1_164.sKept by decide)]
  simp only [Nat.add_zero]
  unfold GatherDims.start
  rw [dif_pos (show (0 : Fin S16x64.rank) ∈ gather_S16x64_S2000000x1_S2000000x64_1_0_n_n_0_1_164.startIndexMap by decide)]
  have hsi : gather_S16x64_S2000000x1_S2000000x64_1_0_n_n_0_1_164.siIdx (ix2 n c)
      ⟨List.idxOf (0 : Fin S16x64.rank) gather_S16x64_S2000000x1_S2000000x64_1_0_n_n_0_1_164.startIndexMap,
        List.idxOf_lt_length_iff.2 (by decide)⟩ = ix2 n (0 : Fin 1) := by
    funext b; refine Fin.ext ?_
    match b with
    | ⟨0, _⟩ => rfl
    | ⟨1, _⟩ => rfl
  rw [hsi]
  rfl

theorem gather_col (idx : IVec S2000000x1 32) (n : Fin 2000000) (c : Fin 64) :
    (gather_S16x64_S2000000x1_S2000000x64_1_0_n_n_0_1_164.operandIdx (ix2 n c) idx (1 : Fin S16x64.rank)).val = c.val := by
  show gather_S16x64_S2000000x1_S2000000x64_1_0_n_n_0_1_164.start (ix2 n c) idx (1 : Fin S16x64.rank)
    + gather_S16x64_S2000000x1_S2000000x64_1_0_n_n_0_1_164.batchCoord (ix2 n c) (1 : Fin S16x64.rank)
    + gather_S16x64_S2000000x1_S2000000x64_1_0_n_n_0_1_164.offCoord (ix2 n c) (1 : Fin S16x64.rank) = _
  rw [GatherDims.batchCoord_eq_zero _ _ _ (show ¬ (1 : Fin S16x64.rank) ∈ gather_S16x64_S2000000x1_S2000000x64_1_0_n_n_0_1_164.operandBatchingDims by decide)]
  unfold GatherDims.start GatherDims.offCoord
  rw [dif_neg (show ¬ (1 : Fin S16x64.rank) ∈ gather_S16x64_S2000000x1_S2000000x64_1_0_n_n_0_1_164.startIndexMap by decide),
    dif_pos (show (1 : Fin S16x64.rank) ∈ gather_S16x64_S2000000x1_S2000000x64_1_0_n_n_0_1_164.sKept by decide)]
  simp only [Nat.add_zero, Nat.zero_add]
  rfl

/-- Where the start index is a word below 16, the gather's row `n` reads that row of the table. -/
theorem gather_at (g : FVec Ideal S16x64 .f32) (idx : IVec S2000000x1 32) (n : Fin 2000000) (c : Fin 64)
    (hb : (idx (ix2 n (0 : Fin 1))).toNat < 16) :
    Host.gather gather_S16x64_S2000000x1_S2000000x64_1_0_n_n_0_1_164 g idx (ix2 n c)
      = g (ix2 (⟨(idx (ix2 n (0 : Fin 1))).toNat, hb⟩ : Fin 16) c) := by
  unfold Host.gather
  show g _ = g _
  congr 1
  funext a; refine Fin.ext ?_
  match a with
  | ⟨0, _⟩ => exact (gather_row idx n c).trans (clamp_word _ hb)
  | ⟨1, _⟩ => exact gather_col idx n c

/-! ## The accumulating scatter at an index -/

/-- Over rank-2 updates: the operand's element plus the updates that land there, the landing condition given
    coordinate by coordinate. -/
theorem hostScatterAdd_at2 {s si : Shape} {n0 n1 : Nat} (d : ScatterDims s si ⟨2, ![n0, n1]⟩) {w : Nat} (x : s.Idx → EReal)
    (idx : IVec si w) (upd : (⟨2, ![n0, n1]⟩ : Shape).Idx → EReal) (i : s.Idx)
    (P : Fin n0 → Fin n1 → Prop) [∀ a b, Decidable (P a b)]
    (hP : ∀ a b, d.resultIdx? (ix2 a b) idx = some i ↔ P a b) :
    Ideal.hostScatterAdd d x idx upd i = x i + ∑ a, ∑ b, if P a b then upd (ix2 a b) else 0 := by
  unfold Ideal.hostScatterAdd
  rw [Finset.sum_filter, ValueIdx.sum_idx2]
  exact congrArg (x i + ·) (Finset.sum_congr rfl fun a _ => Finset.sum_congr rfl fun b _ => if_congr (hP a b) rfl rfl)

/-- Over rank-1 updates. -/
theorem hostScatterAdd_at1 {s si : Shape} {n0 : Nat} (d : ScatterDims s si ⟨1, ![n0]⟩) {w : Nat} (x : s.Idx → EReal)
    (idx : IVec si w) (upd : (⟨1, ![n0]⟩ : Shape).Idx → EReal) (i : s.Idx)
    (P : Fin n0 → Prop) [DecidablePred P] (hP : ∀ a, d.resultIdx? (ix1 a) idx = some i ↔ P a) :
    Ideal.hostScatterAdd d x idx upd i = x i + ∑ a, if P a then upd (ix1 a) else 0 := by
  unfold Ideal.hostScatterAdd
  rw [Finset.sum_filter, sum_idx1]
  exact congrArg (x i + ·) (Finset.sum_congr rfl fun a _ => if_congr (hP a) rfl rfl)

/-- A sum of entries kept where a fixed condition holds and the index is `c` is the entry at `c` under the condition. -/
theorem sum_ite_and_eq {ι : Type*} [Fintype ι] [DecidableEq ι] (p : Prop) [Decidable p] (c : ι) (f : ι → EReal) :
    ∑ b, (if p ∧ b = c then f b else 0) = if p then f c else 0 := by
  by_cases hp : p
  · simp only [hp, true_and, if_true, Finset.sum_ite_eq', Finset.mem_univ]
  · simp only [hp, false_and, if_false, Finset.sum_const_zero]

theorem hot_eq (b : BitVec 32) (k : Fin 16) : Cert.SegMean.hot b k = if b = BitVec.ofNat 32 k.val then 1 else 0 := rfl

theorem hot_mul (b : BitVec 32) (k : Fin 16) (y : EReal) :
    Cert.SegMean.hot b k * y = if b = BitVec.ofNat 32 k.val then y else 0 := by
  rw [hot_eq]; split
  · exact one_mul y
  · exact zero_mul y

/-! ## The reference's stages -/

/-- The broadcast column of segment words reads row `n`'s word. -/
theorem v1_at (x1 : IVec S2000000 32) (n : Fin 2000000) :
    val_main_v1 (F := Ideal) x1 (ix2 n (0 : Fin 1)) = x1 (ix1 n) := by
  have e : idx_main_v1 (ix2 n (0 : Fin 1)) = ix1 n := funext fun a => Fin.ext (by match a with | ⟨0, _⟩ => rfl)
  rw [val_main_v1_apply, e]

theorem v5_at (x1 : IVec S2000000 32) (n : Fin 2000000) :
    val_main_v5 (F := Ideal) x1 (ix2 n (0 : Fin 1)) = x1 (ix1 n) := by
  have e : idx_main_v5 (ix2 n (0 : Fin 1)) = ix1 n := funext fun a => Fin.ext (by match a with | ⟨0, _⟩ => rfl)
  rw [val_main_v5_apply, e]

/-- The segment sum as one sum over all rows. -/
theorem segSumAt_rows (x0 : FVec Ideal S2000000x64 .f32) (x1 : IVec S2000000 32) (k : Fin 16) (c : Fin 64) :
    Cert.SegMean.segSumAt (words x1) x0 k c = ∑ n : Fin 2000000, Cert.SegMean.hot (words x1 n) k * x0 (ix2 n c) := by
  unfold Cert.SegMean.segSumAt
  exact (Cert.SegMean.sum_rows (fun n => Cert.SegMean.hot (words x1 n) k * x0 (ix2 n c))).symm

/-- The segment count as one sum over all rows. -/
theorem segCntAt_rows (x1 : IVec S2000000 32) (k : Fin 16) :
    Cert.SegMean.segCntAt (words x1) k = ∑ n : Fin 2000000, Cert.SegMean.hot (words x1 n) k := by
  unfold Cert.SegMean.segCntAt
  exact (Cert.SegMean.sum_rows (fun n => Cert.SegMean.hot (words x1 n) k)).symm

theorem v2_def (x0 : FVec Ideal S2000000x64 .f32) (x1 : IVec S2000000 32) :
    val_main_v2 (F := Ideal) x0 x1 = Ideal.hostScatterAdd scatter_S16x64_S2000000x1_S2000000x64_1_0_0_1
      (val_main_v0 (F := Ideal)) (val_main_v1 (F := Ideal) x1) x0 := rfl

theorem v6_def (x1 : IVec S2000000 32) :
    val_main_v6 (F := Ideal) x1 = Ideal.hostScatterAdd scatter_S16_S2000000x1_S2000000_n_0_0_1
      (val_main_v4 (F := Ideal)) (val_main_v5 (F := Ideal) x1) (val_main_v3 (F := Ideal)) := rfl

/-- The first scatter-add is the table of segment sums (for all words, in range or not). -/
theorem v2_at (x0 : FVec Ideal S2000000x64 .f32) (x1 : IVec S2000000 32) (k : Fin 16) (c : Fin 64) :
    val_main_v2 (F := Ideal) x0 x1 (ix2 k c) = Cert.SegMean.segSumAt (words x1) x0 k c := by
  rw [segSumAt_rows, v2_def, hostScatterAdd_at2 _ _ _ _ _ (fun n c' => x1 (ix1 n) = BitVec.ofNat 32 k.val ∧ c' = c)
    (fun n c' => (scatter2_iff _ n c' k c).trans (and_congr_left' (by rw [v1_at]; exact toInt_eq_iff _ k)))]
  rw [val_main_v0_apply, val_main_cst_apply, Ideal.ofBits_def, Ideal.ofBits_zero_f32, zero_add]
  refine Finset.sum_congr rfl fun n _ => ?_
  rw [hot_mul]
  exact sum_ite_and_eq _ c (fun b => x0 (ix2 n b))

/-- The second scatter-add is the vector of segment counts (for all words, in range or not). -/
theorem v6_at (x1 : IVec S2000000 32) (k : Fin 16) :
    val_main_v6 (F := Ideal) x1 (ix1 k) = Cert.SegMean.segCntAt (words x1) k := by
  rw [segCntAt_rows, v6_def, hostScatterAdd_at1 _ _ _ _ _ (fun n => x1 (ix1 n) = BitVec.ofNat 32 k.val)
    (fun n => (scatter1_iff _ n k).trans (by rw [v5_at]; exact toInt_eq_iff _ k))]
  rw [val_main_v4_apply, val_main_cst_1_apply, Ideal.ofBits_def, Ideal.ofBits_zero_f32, zero_add]
  refine Finset.sum_congr rfl fun n _ => ?_
  rw [val_main_v3_apply, val_main_cst_0_apply, Ideal.ofBits_def, ofBits_one, hot_eq]

/-- The reference's mean stage is the segment mean of the segment sums and counts. -/
theorem mean_eq (x0 : FVec Ideal S2000000x64 .f32) (x1 : IVec S2000000 32) :
    val_main_v11 (F := Ideal) x0 x1
      = Cert.SegMean.meanOf (Cert.SegMean.segSum (words x1) x0) (Cert.SegMean.segCntAt (words x1)) := by
  funext j
  obtain ⟨k, c, rfl⟩ : ∃ (k : Fin 16) (c : Fin 64), j = ix2 k c := ⟨j 0, j 1, eq_ix2 j⟩
  have e10 : idx_main_v10 (ix2 k c) = ix2 k (0 : Fin 1) :=
    funext fun a => Fin.ext (by match a with | ⟨0, _⟩ => rfl | ⟨1, _⟩ => rfl)
  have e9 : idx_main_v9 (ix2 k (0 : Fin 1)) = ix1 k := funext fun a => Fin.ext (by match a with | ⟨0, _⟩ => rfl)
  rw [val_main_v11_apply, val_main_v10_apply, e10, val_main_v9_apply, e9, val_main_v8_apply, val_main_v7_apply,
    val_main_cst_2_apply, v2_at, v6_at]
  rfl

/-- From the mean stage to the gate stage the reference applies the shared chain of host operations. -/
theorem gate_eq (x0 : FVec Ideal S2000000x64 .f32) (x1 : IVec S2000000 32) (x2 : FVec Ideal S64x16 .f32)
    (x3 : FVec Ideal S16 .f32) (x4 : FVec Ideal S16x64 .f32) (x5 : FVec Ideal S64 .f32) :
    val_main_v26 (F := Ideal) x0 x1 x2 x3 x4 x5 = Cert.SegMean.gateOf (val_main_v11 (F := Ideal) x0 x1) x2 x3 x4 x5 :=
  rfl

/-- The wrapped column of segment words reads row `n`'s word where that word is below 16. -/
theorem v32_at (x1 : IVec S2000000 32) (n : Fin 2000000) (hb : (x1 (ix1 n)).toNat < 16) :
    val_main_v32 (F := Ideal) x1 (ix2 n (0 : Fin 1)) = x1 (ix1 n) := by
  have e : idx_main_v32 (ix2 n (0 : Fin 1)) = ix1 n := funext fun a => Fin.ext (by match a with | ⟨0, _⟩ => rfl)
  rw [val_main_v32_apply, e, val_main_v31_apply, val_main_v28_apply, val_main_v27_apply, val_main_c_apply,
    cmpi_slt_zero _ hb, ValueIdx.select_zero]

theorem v33_def (x0 : FVec Ideal S2000000x64 .f32) (x1 : IVec S2000000 32) (x2 : FVec Ideal S64x16 .f32)
    (x3 : FVec Ideal S16 .f32) (x4 : FVec Ideal S16x64 .f32) (x5 : FVec Ideal S64 .f32) :
    val_main_v33 (F := Ideal) x0 x1 x2 x3 x4 x5
      = Host.gather gather_S16x64_S2000000x1_S2000000x64_1_0_n_n_0_1_164 (val_main_v26 (F := Ideal) x0 x1 x2 x3 x4 x5)
          (val_main_v32 (F := Ideal) x1) := rfl

/-- The result function at row `n`, column `c`. -/
theorem result_at (b : Fin 2000000 → BitVec 32) (x : FVec Ideal S2000000x64 .f32) (W1 : FVec Ideal S64x16 .f32)
    (b1 : FVec Ideal S16 .f32) (W2 : FVec Ideal S16x64 .f32) (b2 : FVec Ideal S64 .f32) (n : Fin 2000000) (c : Fin 64) :
    Cert.SegMean.result b x W1 b1 W2 b2 (ix2 n c)
      = x (ix2 n c) * ∑ k : Fin 16, Cert.SegMean.hot (b n) k
          * (fun k : Fin 16 => Cert.SegMean.gateOf (Cert.SegMean.meanOf (Cert.SegMean.segSum b x) (Cert.SegMean.segCntAt b))
              W1 b1 W2 b2 (ix2 k c)) k := rfl

/-- The reference's result stage is SegMean.result of its arguments, where every segment word is below 16. -/
theorem result_eq (x0 : FVec Ideal S2000000x64 .f32) (x1 : IVec S2000000 32) (x2 : FVec Ideal S64x16 .f32)
    (x3 : FVec Ideal S16 .f32) (x4 : FVec Ideal S16x64 .f32) (x5 : FVec Ideal S64 .f32)
    (hin : ∀ n : Fin 2000000, (x1 (ix1 n)).toNat < 16) :
    val_main_v34 (F := Ideal) x0 x1 x2 x3 x4 x5 = Cert.SegMean.result (words x1) x0 x2 x3 x4 x5 := by
  funext i
  obtain ⟨n, c, rfl⟩ : ∃ (n : Fin 2000000) (c : Fin 64), i = ix2 n c := ⟨i 0, i 1, eq_ix2 i⟩
  have hw : val_main_v32 (F := Ideal) x1 (ix2 n (0 : Fin 1)) = x1 (ix1 n) := v32_at x1 n (hin n)
  have hb : (val_main_v32 (F := Ideal) x1 (ix2 n (0 : Fin 1))).toNat < 16 := by rw [hw]; exact hin n
  have hk : (⟨(val_main_v32 (F := Ideal) x1 (ix2 n (0 : Fin 1))).toNat, hb⟩ : Fin 16) = ⟨(x1 (ix1 n)).toNat, hin n⟩ :=
    Fin.ext (congrArg BitVec.toNat hw)
  rw [val_main_v34_apply, Ideal.mulf_def, v33_def, gather_at _ _ n c hb, hk, gate_eq, mean_eq, result_at,
    Cert.SegMean.sum_hot_mul (words x1 n) (hin n)]

end Cert.ReferenceIdeal.RefValue

end
-- ==== Proof.IndexRange.lean ====
/-
  What the precondition says of the segment words: its last conjunct, the conjunction over all rows of
  0 ≤ b n (signed) and b n < 16 (signed), makes every word's value below 16.
-/
import proofs.«412113_j23235773072056_1_alg».proof.Pre_finite_inputs
import proofs.«412113_j23235773072056_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

open Idealize.ShloMosaic
open Idealize.ShloMosaic.ValueIdx

namespace Cert.Pre_finite_inputs.IndexRange

open Cert.Pre_finite_inputs Cert.Pre_finite_inputs.Gen

/-- A rank-zero shape has one index. -/
instance : Subsingleton S_.Idx := ⟨fun a b => funext fun d => d.elim0⟩

/-- Under the precondition every segment word is below 16. -/
theorem in_range (x0 : FVec Ideal S2000000x64 .f32) (x1 : IVec S2000000 32) (x2 : FVec Ideal S64x16 .f32)
    (x3 : FVec Ideal S16 .f32) (x4 : FVec Ideal S16x64 .f32) (x5 : FVec Ideal S64 .f32)
    (h : Cert.Pre_finite_inputs.fn (F := Ideal) x0 x1 x2 x3 x4 x5 = (fun _ => 1#1)) :
    ∀ n : Fin 2000000, (x1 (ix1 n)).toNat < 16 := by
  intro n
  -- the scalar result at its one index: a conjunction whose last factor is the reduce over all rows
  have h0 := congrFun h ix0
  dsimp only [fn, fn_part1] at h0
  obtain ⟨-, hall⟩ := IntOp.andi_eq_one.1 h0
  -- every row's bit is set: 0 ≤ b n and b n < 16, both signed
  have hrow := Host.reduce_andi_all _ _ _ _ _ hall (ix1 n)
  obtain ⟨hge, hlt⟩ := IntOp.andi_eq_one.1 hrow
  have h1 : (0#32 : BitVec 32).toInt ≤ (x1 (ix1 n)).toInt := IntOp.cmpi_sge.1 hge
  have h2 : (x1 (ix1 n)).toInt < (16#32 : BitVec 32).toInt := IntOp.cmpi_slt.1 hlt
  -- a word whose signed value lies in [0, 16) has that value unsigned
  have e0 : (0#32 : BitVec 32).toInt = 0 := by decide
  have e16 : (16#32 : BitVec 32).toInt = 16 := by decide
  rw [e0] at h1
  rw [e16] at h2
  have hb := (x1 (ix1 n)).isLt
  rw [BitVec.toInt_eq_toNat_cond] at h1 h2
  split at h1 <;> omega

end Cert.Pre_finite_inputs.IndexRange

end
-- ==== Proof.lean ====
/-
  Kernel against reference for squeeze-and-excite gating by segment means, over the extended reals.

  Both idealized programs compute, for row n and column c,  x n c · gate (b n) c,  where b n is the row's segment
  word, gate = sigmoid (relu (mean · W1 + b1) · W2 + b2) and mean k c is segment k's column sum over its row count
  raised to at least one. The kernel accumulates the sums and counts block by block with a one-hot matrix product
  and a lane sum (region 0), forms the gate on the host, and multiplies each block of rows by the one-hot product
  with the gate table (region 1); the reference scatter-adds, forms the same gate, and gathers a gate row per
  row. A one-hot row with an all-zero product stands where the gather clamps, so the two agree exactly where every
  segment word is in 0 … 15: the precondition's last conjunct (SegMean.lean states the common function,
  IndexRange.lean reads the range off the precondition).
-/
import proofs.«412113_j23235773072056_1_alg».proof.Defs
import proofs.«412113_j23235773072056_1_alg».proof.Proof.Gen.Kernel
import proofs.«412113_j23235773072056_1_alg».proof.Proof.Gen.Kernel.Skeleton
import proofs.«412113_j23235773072056_1_alg».proof.Proof.Gen.Kernel.Launch
import proofs.«412113_j23235773072056_1_alg».proof.Proof.Gen.Kernel.Points
import proofs.«412113_j23235773072056_1_alg».proof.Proof.Gen.Kernel.Frame
import proofs.«412113_j23235773072056_1_alg».proof.Proof.Gen.KernelIdeal
import proofs.«412113_j23235773072056_1_alg».proof.Proof.Gen.KernelIdeal.Skeleton
import proofs.«412113_j23235773072056_1_alg».proof.Proof.Gen.KernelIdeal.Launch
import proofs.«412113_j23235773072056_1_alg».proof.Proof.Gen.KernelIdeal.Points
import proofs.«412113_j23235773072056_1_alg».proof.Proof.Gen.KernelIdeal.Frame
import proofs.«412113_j23235773072056_1_alg».proof.Proof.Gen.ReferenceIdeal
import proofs.«412113_j23235773072056_1_alg».proof.Proof.Gen.ReferenceIdeal.Run
import proofs.«412113_j23235773072056_1_alg».proof.Proof.Gen.ReferenceIdeal.Read
import proofs.«412113_j23235773072056_1_alg».proof.Proof.Gen.Pre_finite_inputs
import proofs.«412113_j23235773072056_1_alg».proof.Proof.SegMean
import proofs.«412113_j23235773072056_1_alg».proof.Proof.KernelNamed
import proofs.«412113_j23235773072056_1_alg».proof.Proof.KernelValue
import proofs.«412113_j23235773072056_1_alg».proof.Proof.RefValue
import proofs.«412113_j23235773072056_1_alg».proof.Proof.IndexRange
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at SegMean.result of the arguments: the kernel by its run read through @main's fold,
    the reference by its stages, the segment words below 16 by the precondition. -/
theorem algebraic : Cert.algebraic_KernelIdeal_ReferenceIdeal := by
  intro m ρ m' ρ' hpre hagree
  refine ⟨fun c => Cert.SegMean.result (Cert.KernelIdeal.KernelValue.words m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v34_eq, e0, e1, e2, e3, e4, e5]
    exact Cert.ReferenceIdeal.RefValue.result_eq _ _ _ _ _ _
      (Cert.Pre_finite_inputs.IndexRange.in_range _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
